-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x128 : Shape := ⟨2, ![128, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S4096x128 .f32) (main_arg1 : FVec F S4096x4096 .f32) (main_arg2 : FVec F S4096x4096 .f32) (main_arg3 : FVec F S128x128 .f32) (main_arg4 : FVec F S128x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S4096x128 : Shape := ⟨2, ![4096, 128]⟩
abbrev S4096x4096 : Shape := ⟨2, ![4096, 4096]⟩
abbrev S128x128 : Shape := ⟨2, ![128, 128]⟩
abbrev S1024x1024 : Shape := ⟨2, ![1024, 1024]⟩
abbrev S1024x128 : Shape := ⟨2, ![1024, 128]⟩

abbrev nBuf : Space → Nat
  | .hbm => 6
  | .vmem => 12
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S4096x4096, .f32⟩
  | .hbm, ⟨3, _⟩ => ⟨S128x128, .f32⟩
  | .hbm, ⟨4, _⟩ => ⟨S128x128, .f32⟩
  | .hbm, ⟨5, _⟩ => ⟨S4096x128, .f32⟩
  | .local _ .vmem, ⟨0, _⟩ => ⟨S4096x128, .f32⟩
  | .local _ .vmem, ⟨1, _⟩ => ⟨S128x128, .f32⟩
  | .local _ .vmem, ⟨2, _⟩ => ⟨S128x128, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S4096x128, .f32⟩
  | .local _ .vmem, ⟨11, _⟩ => ⟨S4096x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c1024_i32_15 : BitVec 32 := 1024#32
  let v25 : BitVec 32 := Scalar.muli arg1 c1024_i32_15
  let v26 : Index := Scalar.indexCast v25
  let c0_16 : Index := 0#32
  ![v26.toNat, 0]
def k0_off2 (i : grid0.Coords) : Fin 2 → Nat :=
  let arg1 : BitVec 32 := BitVec.ofNat 32 (i 1).val
  let c1024_i32 : BitVec 32 := 1024#32
  let v6 : BitVec 32 := Scalar.muli arg1 c1024_i32
  let v7 : Index := Scalar.indexCast v6
  let c0 : Index := 0#32
  ![v7.toNat, 0]
def k0_cond3 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  h_S1024x128 : 0 < S1024x128.numel
  inb_S128x128_S128x128_0_0 : ∀ a, (![0, 0] : Fin 2 → Nat) a + S128x128.size a ≤ S128x128.size a
  h_S128x128 : 0 < S128x128.numel
  shapeCasts_S1024x128_S1024x128 : S1024x128.ShapeCasts S1024x128
  inb_S1024x128_S1024x128_0_0 : ∀ a, (![0, 0] : Fin 2 → Nat) a + S1024x128.size a ≤ S1024x128.size a
  inb_S1024x1024_S1024x1024_0_0 : ∀ a, (![0, 0] : Fin 2 → Nat) a + S1024x1024.size a ≤ S1024x1024.size a
  h_S1024x1024 : 0 < S1024x1024.numel
  dot_S1024x128_S128x128_S1024x128_1_0_0_1_n_n_wf : DotDims.WF S1024x128 S128x128 S1024x128 [1] [0] [0] [1] [] []
  dot_S1024x1024_S1024x128_S1024x128_1_0_0_1_n_n_wf : DotDims.WF S1024x1024 S1024x128 S1024x128 [1] [0] [0] [1] [] []
  hrank0 : 0 < grid0.rank
  k0_off1_inb : ∀ i : grid0.Coords, ∀ (k0_h1 : k0_cond1 i = 1#1), ∀ a, (k0_off1 i) a + S1024x128.size a ≤ S4096x128.size a
  k0_off2_inb : ∀ i : grid0.Coords, ∀ a, (k0_off2 i) a + S1024x128.size a ≤ S4096x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x4096.size a
  hwx0_4 : ∀ i : grid0.Coords, EltTy.bits .f32 = 32 ∨ (Rect.block (s := S4096x4096) S1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S4096x128.size a
  hwx0_5 : ∀ i : grid0.Coords, EltTy.bits .f32 = 32 ∨ (Rect.block (s := S4096x128) S1024x128.size (cc0_transform_5 i) (hinb0_5 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond3 i == 1#1) | ⟨_ + 6, h⟩ => absurd h (Nat.not_lt.2 (Nat.le_add_left _ _))

class Facts : Prop extends Facts₀ where

variable [Facts]
-- ==== ReferenceIdeal.lean ====
abbrev S4096x128 : Shape := ⟨2, ![4096, 128]⟩
abbrev S4096x4096 : Shape := ⟨2, ![4096, 4096]⟩
abbrev S128x128 : Shape := ⟨2, ![128, 128]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S4096x4096, .f32⟩
  | .hbm, ⟨3, _⟩ => ⟨S128x128, .f32⟩
  | .hbm, ⟨4, _⟩ => ⟨S128x128, .f32⟩
  | .hbm, ⟨5, _⟩ => ⟨S4096x128, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S_, .f32⟩
  | .hbm, ⟨11, _⟩ => ⟨S4096x128, .f32⟩
  | .hbm, ⟨12, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩

abbrev nD : Nat := 1
abbrev τ : Topo := Topo.v7x

variable {F : FTy → Type} [FloatOps F]

class Facts₀ : Prop where
  bcast_S_S4096x128 : S_.BroadcastsInDim S4096x128 (![] : Fin 0 → Fin S4096x128.rank)
  dot_S4096x128_S128x128_S4096x128_1_0_0_1_n_n_wf : DotDims.WF S4096x128 S128x128 S4096x128 [1] [0] [0] [1] [] []
  dot_S4096x4096_S4096x128_S4096x128_1_0_0_1_n_n_wf : DotDims.WF S4096x4096 S4096x128 S4096x128 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.HandK.Spec.lean ====
/-
  What one call of the kernel body does to the buffers it is handed, as pure functions of their contents, and
  what the carried scratch buffers hold after each grid point, in closed form over the argument arrays.

  The grid is 4 x 4, visited row-major: point t is row block i = t / 4, contraction chunk k = t % 4. At a point
  the body (1) if i = 0 overwrites rows [1024 k, 1024 k + 1024) of the two projection scratches with
  x[those rows] * W_irr and x[those rows] * W_sol; (2) if k = 0 zeroes the accumulator; (3) adds
  L[i,k] * h_irr[chunk k] + U[i,k] * h_sol[chunk k] to the accumulator; (4) if k = 3 stores max(acc, 0) to the
  output block. Everything is stated at any float instance: the sums stay in the body's own order.
-/
import proofs.«148269_g26044681683717_cont_sun_m_400_15_alg».proof.Proof.Gen.Kernel.Skeleton
import proofs.«148269_g26044681683717_cont_sun_m_400_15_alg».proof.Proof.Gen.Kernel.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-! ## One call of the body -/

/-- The condition of the body's second branch (reset the accumulator), from the grid coordinates. -/
abbrev cond2 (i : grid0.Coords) : Prop :=
  (Scalar.cmpi .ne (Scalar.extui (Scalar.cmpi .eq (BitVec.ofNat 32 (i 1).val) 0#32)) 0#32) = 1#1

/-- Rows [1024 k, 1024 k + 1024) of a 4096 x 128 buffer, k the point's second coordinate. -/
abbrev chunk (i : grid0.Coords) : Rect S4096x128 := Rect.unit (s := S4096x128) (k0_off2 i) S1024x128.size (k0_off2_inb i)

/-- A projection scratch after the body's first branch: at row block 0 the point's chunk is overwritten by the
    projection of the same rows of x, elsewhere nothing changes. `pay` is the projection's payload. -/
def stepP (pay : Vec F S1024x128 .f32 → Vec F S128x128 .f32 → FVec F S1024x128 .f32) (i : grid0.Coords)
    (x : Vec F S4096x128 .f32) (w : Vec F S128x128 .f32) (h : Vec F S4096x128 .f32) : Vec F S4096x128 .f32 :=
  if k0_cond1 i = 1#1 then (chunk i).overlay h (pay (View.ld x (chunk i)) w) else h

/-- The accumulator as the body's third step finds it: zero at the first chunk of a row block. -/
def accIn (i : grid0.Coords) (a : Vec F S1024x128 .f32) : Vec F S1024x128 .f32 :=
  if cond2 i then k0_pay3 (F := F) else a

/-- The accumulator after the body. -/
def stepA (i : grid0.Coords) (x : Vec F S4096x128 .f32) (wi ws : Vec F S128x128 .f32) (lb ub : Vec F S1024x1024 .f32)
    (a : Vec F S1024x128 .f32) (h s : Vec F S4096x128 .f32) : Vec F S1024x128 .f32 :=
  k0_pay4 (View.ld (stepP k0_pay1 i x wi h) (chunk i)) (View.ld (stepP k0_pay2 i x ws s) (chunk i)) (accIn i a) lb ub

/-- The output's staging buffer after the body: the rectified accumulator at the last chunk, untouched before. -/
def stepO (i : grid0.Coords) (x : Vec F S4096x128 .f32) (wi ws : Vec F S128x128 .f32) (lb ub : Vec F S1024x1024 .f32)
    (o a : Vec F S1024x128 .f32) (h s : Vec F S4096x128 .f32) : Vec F S1024x128 .f32 :=
  if k0_cond3 i = 1#1 then k0_pay5 (stepA i x wi ws lb ub a h s) else o

/-! ## The grid's points -/

variable (m : (ℓ : Loc nD τ sig) → Buf (Elt F) ℓ)

/-- Point `n` of the 16 (taken mod 16, so that it is total). -/
def ptOf (n : ℕ) : Fin cfg0.N := ⟨n % 16, lt_of_lt_of_eq (Nat.mod_lt _ (by decide)) N_0.symm⟩

theorem ptOf_val (t : Fin cfg0.N) : ptOf t.val = t :=
  Fin.ext (Nat.mod_eq_of_lt (lt_of_lt_of_eq t.isLt N_0))

/-- The three windows whose block never moves, read once: x, W_irr, W_sol as the region finds them. -/
def X (c : Dev nD) : Vec F S4096x128 .f32 := iblk m c 0 (ptOf 0)
def Wi (c : Dev nD) : Vec F S128x128 .f32 := iblk m c 1 (ptOf 0)
def Ws (c : Dev nD) : Vec F S128x128 .f32 := iblk m c 2 (ptOf 0)
/-- The blocks of L and U that point `t` is handed. -/
abbrev Lb (c : Dev nD) (t : Fin cfg0.N) : Vec F S1024x1024 .f32 := iblk m c 3 t
abbrev Ub (c : Dev nD) (t : Fin cfg0.N) : Vec F S1024x1024 .f32 := iblk m c 4 t

/-- The projections of the rows of x that point `t`'s chunk names: what the two scratches hold there once
    row block 0 has passed that chunk. -/
def P1 (c : Dev nD) (t : Fin cfg0.N) : Vec F S1024x128 .f32 := k0_pay1 (View.ld (X m c) (chunk (grid0.coords t))) (Wi m c)
def P2 (c : Dev nD) (t : Fin cfg0.N) : Vec F S1024x128 .f32 := k0_pay2 (View.ld (X m c) (chunk (grid0.coords t))) (Ws m c)

/-- The accumulator after point `n`, in the body's own order: the point's two products added to what the point
    before left, or to zero at the first chunk of a row block. -/
def ACC (c : Dev nD) : ℕ → Vec F S1024x128 .f32
  | 0 => k0_pay4 (P1 m c (ptOf 0)) (P2 m c (ptOf 0)) (accIn (grid0.coords (ptOf 0)) (k0_pay3 (F := F))) (Lb m c (ptOf 0)) (Ub m c (ptOf 0))
  | n + 1 => k0_pay4 (P1 m c (ptOf (n + 1))) (P2 m c (ptOf (n + 1))) (accIn (grid0.coords (ptOf (n + 1))) (ACC c n))
      (Lb m c (ptOf (n + 1))) (Ub m c (ptOf (n + 1)))

/-- What the output's staging buffer holds after point `t` where the body stores it (the last chunk of a row block). -/
def outAt (c : Dev nD) (t : Fin cfg0.N) : Vec F S1024x128 .f32 := k0_pay5 (ACC m c t.val)

/-- What the three scratches hold before point `n` (after `n` points): every chunk row block 0 has passed holds its
    projections, and inside a row block the accumulator holds the fold so far. Nothing is said of the rest. -/
def Inv (c : Dev nD) (n : ℕ) (a : Vec F S1024x128 .f32) (h s : Vec F S4096x128 .f32) : Prop :=
  (∀ t : Fin cfg0.N, t.val % 4 < n →
      View.ld h (chunk (grid0.coords t)) = P1 m c t ∧ View.ld s (chunk (grid0.coords t)) = P2 m c t)
  ∧ (n % 4 ≠ 0 → a = ACC m c (n - 1))

theorem Inv_zero (c : Dev nD) (a : Vec F S1024x128 .f32) (h s : Vec F S4096x128 .f32) : Inv m c 0 a h s :=
  ⟨fun _ ht => absurd ht (Nat.not_lt_zero _), fun h0 => absurd rfl h0⟩

end Cert.Kernel.Hand

end
-- ==== Proof.HandK.Body.lean ====
/-
  One call of the kernel body as a triple: handed its nine buffers at any contents, it runs without fault and
  hands them back, the five inputs untouched, the output, the accumulator and the two projection scratches at the
  step functions of what it found (Spec). Stated for any grid coordinates and at any float instance.
-/
import proofs.«148269_g26044681683717_cont_sun_m_400_15_alg».proof.Proof.HandK.Spec
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Reading buffers back

What a load reads of a whole buffer named by the contents it reads, what a buffer reads after one store through a
rectangle, after a last store through its whole shape, and what a load through a store's own rectangle reads. -/

section Reads

variable {Val : EltTy → Type} {sg : RefSig} {κ : Kind} {sp : Space} {s : Shape} {e : EltTy}

/-- The zero offsets of rank 2 are the constant zero function. -/
theorem zeros2 : (![0, 0] : Fin 2 → ℕ) = fun _ => 0 := by
  funext a
  match a with
  | ⟨0, _⟩ => rfl
  | ⟨1, _⟩ => rfl

/-- A load through a rectangle, of the raw contents of a whole buffer that read `X`, reads `X` at the rectangle's indices. -/
theorem readAt_unread {m : Memref sg κ sp s e} (hm : m.IsWhole) (X : s.Idx → Val e) (r : Rect s) :
    m.view.readAt Val r.toLoadRect (hm.unread X) = View.ld X r := by
  rw [View.readAt_eq_ld, hm.read_unread]

/-- Through the whole shape (rank 2, zero offsets, the shape's own sizes) it reads `X` itself. -/
theorem readAt_unread_zero {d : Fin 2 → ℕ} {m : Memref sg κ sp ⟨2, d⟩ e} (hm : m.IsWhole)
    (inb : ∀ a, (![0, 0] : Fin 2 → ℕ) a + d a ≤ d a) (X : Shape.Idx ⟨2, d⟩ → Val e) :
    m.view.readAt Val (Rect.unit (s := ⟨2, d⟩) ![0, 0] d inb).toLoadRect (hm.unread X) = X := by
  rw [readAt_unread]
  exact View.ld_unit_zero (S := ⟨2, d⟩) zeros2 inb X

/-- Read through a rectangle, `X` overlaid on that rectangle by `G` is `G`. -/
theorem ld_overlay (r : Rect s) (X : s.Idx → Val e) (G : r.shape.Idx → Val e) : View.ld (r.overlay X G) r = G :=
  funext fun x => r.overlay_emb X G x

/-- After ONE store through a rectangle a buffer reads as before, overlaid on the rectangle by the payload. -/
theorem read_writes_one (v : View sg κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy, View.writes_nil]

/-- After a LAST store through the whole shape (zero offsets however spelt) a buffer reads the payload. -/
theorem read_writes_cons_unit_zero {S : Shape} (v : View sg κ sp S e) (f : v.ty.Contents Val) {off : Fin S.rank → ℕ}
    (hz : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  subst hz
  funext y
  have h := View.read_writes_cons_emb v f (Rect.whole S) w L y
  rwa [Rect.emb_whole_apply] at h

/-- The same at rank 2 with the offsets spelt `![0, 0]`. -/
theorem read_writes_cons_zero {d : Fin 2 → ℕ} (v : View sg κ sp ⟨2, d⟩ e) (f : v.ty.Contents Val)
    (inb : ∀ a, (![0, 0] : Fin 2 → ℕ) a + d a ≤ d a) (w : Shape.Idx ⟨2, d⟩ → Val e) (L : List (View.Piece Val ⟨2, d⟩ e)) :
    v.read Val (v.writes Val f ((⟨Rect.unit (s := ⟨2, d⟩) ![0, 0] d inb, w⟩ : View.Piece Val ⟨2, d⟩ e) :: L)) = w :=
  read_writes_cons_unit_zero (S := ⟨2, d⟩) v f zeros2 inb w L

end Reads

/-! ## The step functions, branch by branch -/

section Steps

variable (i : grid0.Coords)

/-- The first branch's rectangle is the point's chunk: the two offset chains are the same operations. -/
theorem rect1_eq (h1 : k0_cond1 i = 1#1) :
    Rect.unit (s := S4096x128) (k0_off1 i) S1024x128.size (k0_off1_inb i h1)
      = Rect.unit (s := S4096x128) (k0_off2 i) S1024x128.size (k0_off2_inb i) := rfl

variable (pay : Vec F S1024x128 .f32 → Vec F S128x128 .f32 → FVec F S1024x128 .f32)
  (x : Vec F S4096x128 .f32) (w : Vec F S128x128 .f32) (h : Vec F S4096x128 .f32) (a : Vec F S1024x128 .f32)

theorem stepP_pos (h1 : k0_cond1 i = 1#1) :
    stepP pay i x w h = (chunk i).overlay h (pay (View.ld x (chunk i)) w) := if_pos h1

theorem stepP_neg (h1 : ¬ k0_cond1 i = 1#1) : stepP pay i x w h = h := if_neg h1

/-- At row block 0 the point's chunk of a projection scratch, after the first branch, is the projection. -/
theorem ld_stepP_pos (h1 : k0_cond1 i = 1#1) :
    View.ld (stepP pay i x w h) (chunk i) = pay (View.ld x (chunk i)) w := by
  rw [stepP_pos i pay x w h h1]
  exact ld_overlay (chunk i) h _

theorem ld_stepP_neg (h1 : ¬ k0_cond1 i = 1#1) :
    View.ld (stepP pay i x w h) (chunk i) = View.ld h (chunk i) := by
  rw [stepP_neg i pay x w h h1]

theorem accIn_pos (h2 : cond2 i) : accIn i a = k0_pay3 (F := F) := if_pos h2

theorem accIn_neg (h2 : ¬ cond2 i) : accIn i a = a := if_neg h2

end Steps

/-! ## Handing the stored buffers back

The accumulator's payload against `stepA`: the two chunk loads and the accumulator load read what the first two branches
left, by the case of each branch (`h1`, `h2` are the case's facts, either way round). -/

/-- Closes `k0_pay4 (what the run loaded) = stepA …` after the run's names are opened. -/
syntax "acc_back " term:max term:max term:max : tactic
macro_rules
  | `(tactic| acc_back $i $h1 $h2) => `(tactic| (
      rw [stepA]
      first
        | rw [ld_stepP_pos $i _ _ _ _ $h1, ld_stepP_pos $i _ _ _ _ $h1]
        | rw [ld_stepP_neg $i _ _ _ _ $h1, ld_stepP_neg $i _ _ _ _ $h1]
      first
        | rw [accIn_pos $i _ $h2]
        | rw [accIn_neg $i _ $h2]
      simp only [readAt_unread_zero]
      try simp only [rect1_eq $i $h1]
      simp only [readAt_unread, View.readCov_cons_toLoadRect, read_writes_cons_zero]))

set_option maxHeartbeats 4000000 in
theorem body_spec (c : Dev nD) (i : grid0.Coords)
    (arg2 : Memref sig .tc .vmem S4096x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S4096x128 .f32) (harg9 : arg9.IsWhole)
    (arg10 : Memref sig .tc .vmem S4096x128 .f32) (harg10 : arg10.IsWhole)
    (x : Vec F S4096x128 .f32) (wi ws : Vec F S128x128 .f32) (lb ub : Vec F S1024x1024 .f32) (o a : Vec F S1024x128 .f32)
    (h s : Vec F S4096x128 .f32) (E : Set ℕ) (K : PUnit → sProp 𝕄) :
    iprop(owns (c : Thread nD τ) arg2 fullShare x ∗ owns (c : Thread nD τ) arg3 fullShare wi ∗ owns (c : Thread nD τ) arg4 fullShare ws
        ∗ owns (c : Thread nD τ) arg5 fullShare lb ∗ owns (c : Thread nD τ) arg6 fullShare ub ∗ owns (c : Thread nD τ) arg7 fullShare o
        ∗ owns (c : Thread nD τ) arg8 fullShare a ∗ owns (c : Thread nD τ) arg9 fullShare h ∗ owns (c : Thread nD τ) arg10 fullShare s
        ∗ (iprop(owns (c : Thread nD τ) arg2 fullShare x ∗ owns (c : Thread nD τ) arg3 fullShare wi ∗ owns (c : Thread nD τ) arg4 fullShare ws
            ∗ owns (c : Thread nD τ) arg5 fullShare lb ∗ owns (c : Thread nD τ) arg6 fullShare ub
            ∗ owns (c : Thread nD τ) arg7 fullShare (stepO i x wi ws lb ub o a h s)
            ∗ owns (c : Thread nD τ) arg8 fullShare (stepA i x wi ws lb ub a h s)
            ∗ owns (c : Thread nD τ) arg9 fullShare (stepP k0_pay1 i x wi h)
            ∗ owns (c : Thread nD τ) arg10 fullShare (stepP k0_pay2 i x ws s)) -∗ K ⟨⟩))
      ⊢ wp frame (wpE (defs₀ (F := F)) Variants.none c none) E
          (cc0__body i arg2 harg2 arg3 harg3 arg4 harg4 arg5 harg5 arg6 harg6 arg7 harg7 arg8 harg8 arg9 harg9 arg10 harg10) K := by
  by_cases hc1 : k0_cond1 i = 1#1 <;> by_cases hc2 : cond2 i <;> by_cases hc3 : k0_cond3 i = 1#1 <;>
  · simp only [cc0__body_eq_skeleton]; unfold cc0__body_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    sl_exec (disch := first | exact hc1 | exact hc2 | exact hc3)
    sl_step
    iapply Hk
    -- the five inputs, untouched
    isplitl [H2]
    · iexists _; isplitr
      · ipureintro; exact harg2.read_unread _
      · iexact H2
    isplitl [H3]
    · iexists _; isplitr
      · ipureintro; exact harg3.read_unread _
      · iexact H3
    isplitl [H4]
    · iexists _; isplitr
      · ipureintro; exact harg4.read_unread _
      · iexact H4
    isplitl [H5]
    · iexists _; isplitr
      · ipureintro; exact harg5.read_unread _
      · iexact H5
    isplitl [H6]
    · iexists _; isplitr
      · ipureintro; exact harg6.read_unread _
      · iexact H6
    -- the output: untouched before the last chunk, the rectified accumulator at it
    isplitl [H7]
    · iexists _; isplitr
      rotate_left
      · iexact H7
      · ipureintro
        sl_unfold_run_names
        first
          | (rw [stepO, if_neg hc3]; exact harg7.read_unread _)
          | (rw [stepO, if_pos hc3]; acc_back i hc1 hc2)
    -- the accumulator: its last store covers it
    isplitl [H8]
    · iexists _; isplitr
      rotate_left
      · iexact H8
      · ipureintro
        sl_unfold_run_names
        acc_back i hc1 hc2
    -- the two projection scratches: one store through the point's chunk at row block 0, untouched elsewhere
    isplitl [H9]
    · iexists _; isplitr
      rotate_left
      · iexact H9
      · ipureintro
        sl_unfold_run_names
        first
          | (rw [stepP_neg i _ _ _ _ hc1]; exact harg9.read_unread _)
          | (rw [stepP_pos i _ _ _ _ hc1]
             simp only [rect1_eq i hc1, readAt_unread_zero]
             simp only [readAt_unread, read_writes_one, Memref.IsWhole.read_unread])
    · iexists _; isplitr
      rotate_left
      · iexact H10
      · ipureintro
        sl_unfold_run_names
        first
          | (rw [stepP_neg i _ _ _ _ hc1]; exact harg10.read_unread _)
          | (rw [stepP_pos i _ _ _ _ hc1]
             simp only [rect1_eq i hc1, readAt_unread_zero]
             simp only [readAt_unread, read_writes_one, Memref.IsWhole.read_unread])

end Cert.Kernel.Hand

end
-- ==== Proof.HandK.Inv.lean ====
/-
  The invariant of the three scratch buffers is kept by one call of the body, and under it the accumulator the
  body leaves is the closed fold.

  Row block 0 (points 0..3) fills chunk k = t of the two projection scratches; the rows of two different chunks are
  disjoint, so filling one leaves the others as they were; from point 4 on the scratches are only read. The
  accumulator after point t is the body's sum of the point's two products and what it found: zero at k = 0, else
  what point t - 1 left, which the invariant names.
-/
import proofs.«148269_g26044681683717_cont_sun_m_400_15_alg».proof.Proof.HandK.Spec

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-! ## The grid's facts, decided once over the sixteen points -/

theorem off2_at : ∀ t : Fin cfg0.N, k0_off2 (grid0.coords t) = ![1024 * (t.val % 4), 0] :=
  (by decide +kernel : ∀ t : Fin grid0.N, k0_off2 (grid0.coords t) = ![1024 * (t.val % 4), 0])
theorem cond1_iff : ∀ t : Fin cfg0.N, k0_cond1 (grid0.coords t) = 1#1 ↔ t.val < 4 :=
  (by decide +kernel : ∀ t : Fin grid0.N, k0_cond1 (grid0.coords t) = 1#1 ↔ t.val < 4)
theorem cond2_iff : ∀ t : Fin cfg0.N, cond2 (grid0.coords t) ↔ t.val % 4 = 0 :=
  (by decide +kernel : ∀ t : Fin grid0.N, cond2 (grid0.coords t) ↔ t.val % 4 = 0)
theorem cond3_iff : ∀ t : Fin cfg0.N, k0_cond3 (grid0.coords t) = 1#1 ↔ t.val % 4 = 3 :=
  (by decide +kernel : ∀ t : Fin grid0.N, k0_cond3 (grid0.coords t) = 1#1 ↔ t.val % 4 = 3)
/-- x, W_irr and W_sol are one block each: its index is (0, 0) at every point. -/
theorem idx0_zero : ∀ (t : Fin cfg0.N) (a : Fin 2), win0_0.index t a = 0 :=
  (by decide +kernel : ∀ (t : Fin grid0.N) (a : Fin 2), win0_0.index t a = 0)
theorem idx1_zero : ∀ (t : Fin cfg0.N) (a : Fin 2), win0_1.index t a = 0 :=
  (by decide +kernel : ∀ (t : Fin grid0.N) (a : Fin 2), win0_1.index t a = 0)
theorem idx2_zero : ∀ (t : Fin cfg0.N) (a : Fin 2), win0_2.index t a = 0 :=
  (by decide +kernel : ∀ (t : Fin grid0.N) (a : Fin 2), win0_2.index t a = 0)

/-! ## Chunks -/

/-- Two points with the same second coordinate name the same rows: each inner index lands on the same cell, -/
theorem chunk_idx_same (t t' : Fin cfg0.N) (h : t'.val % 4 = t.val % 4) (x : (chunk (grid0.coords t')).shape.Idx) :
    (chunk (grid0.coords t')).idx x = (chunk (grid0.coords t)).idx x :=
  funext fun a => Fin.ext (by
    show k0_off2 (grid0.coords t') a + 1 * (x a).val = k0_off2 (grid0.coords t) a + 1 * (x a).val
    rw [off2_at t', off2_at t, h])

/-- so a load through either reads the same. -/
theorem ld_chunk_same (t t' : Fin cfg0.N) (h : t'.val % 4 = t.val % 4) (Y : Vec F S4096x128 .f32) :
    View.ld Y (chunk (grid0.coords t')) = View.ld Y (chunk (grid0.coords t)) :=
  funext fun x => congrArg Y (chunk_idx_same t t' h x)

/-- Two points with different second coordinates name disjoint rows. -/
theorem chunk_disjoint (t t' : Fin cfg0.N) (h : t.val % 4 ≠ t'.val % 4) :
    Disjoint (chunk (grid0.coords t)).set (chunk (grid0.coords t')).set := by
  refine Rect.unit_disjoint (0 : Fin 2) ?_
  rw [off2_at t, off2_at t']
  show 1024 * (t.val % 4) + 1024 ≤ 1024 * (t'.val % 4) ∨ 1024 * (t'.val % 4) + 1024 ≤ 1024 * (t.val % 4)
  omega

/-- Reading back the rows just overwritten gives what was written; -/
theorem ld_overlay_self (i : grid0.Coords) (h : Vec F S4096x128 .f32) (w : Vec F S1024x128 .f32) :
    View.ld ((chunk i).overlay h w) (chunk i) = w :=
  funext fun x => (chunk i).overlay_emb h w x

/-- reading rows disjoint from them gives what was there. -/
theorem ld_overlay_other (i i' : grid0.Coords) (hd : Disjoint (chunk i).set (chunk i').set)
    (h : Vec F S4096x128 .f32) (w : Vec F S1024x128 .f32) :
    View.ld ((chunk i).overlay h w) (chunk i') = View.ld h (chunk i') :=
  funext fun x => (chunk i).overlay_of_not_mem h w (Finset.disjoint_right.mp hd ((chunk i').toLoadRect.idx_mem x))

/-! ## The three windows that never move -/

theorem iblk0_eq (c : Dev nD) (t : Fin cfg0.N) : (iblk m c 0 t : Vec F S4096x128 .f32) = X m c := by
  funext y
  show V m c main_arg0 (((cfg0.win 0).blk t).view.emb y) = V m c main_arg0 (((cfg0.win 0).blk (ptOf 0)).view.emb y)
  refine congrArg (V m c main_arg0) (funext fun a => Fin.ext ?_)
  show win0_0.index t a * S4096x128.size a + 1 * (y a).val = win0_0.index (ptOf 0) a * S4096x128.size a + 1 * (y a).val
  rw [idx0_zero t a, idx0_zero (ptOf 0) a]

theorem iblk1_eq (c : Dev nD) (t : Fin cfg0.N) : (iblk m c 1 t : Vec F S128x128 .f32) = Wi m c := by
  funext y
  show V m c main_arg3 (((cfg0.win 1).blk t).view.emb y) = V m c main_arg3 (((cfg0.win 1).blk (ptOf 0)).view.emb y)
  refine congrArg (V m c main_arg3) (funext fun a => Fin.ext ?_)
  show win0_1.index t a * S128x128.size a + 1 * (y a).val = win0_1.index (ptOf 0) a * S128x128.size a + 1 * (y a).val
  rw [idx1_zero t a, idx1_zero (ptOf 0) a]

theorem iblk2_eq (c : Dev nD) (t : Fin cfg0.N) : (iblk m c 2 t : Vec F S128x128 .f32) = Ws m c := by
  funext y
  show V m c main_arg4 (((cfg0.win 2).blk t).view.emb y) = V m c main_arg4 (((cfg0.win 2).blk (ptOf 0)).view.emb y)
  refine congrArg (V m c main_arg4) (funext fun a => Fin.ext ?_)
  show win0_2.index t a * S128x128.size a + 1 * (y a).val = win0_2.index (ptOf 0) a * S128x128.size a + 1 * (y a).val
  rw [idx2_zero t a, idx2_zero (ptOf 0) a]

/-! ## One call of the body keeps the invariant -/

/-- After point `t` every chunk with second coordinate at most `t` holds its projection: the point's own chunk is
    the one just written (row block 0) or was there already, the others are untouched. -/
theorem proj_after (pay : Vec F S1024x128 .f32 → Vec F S128x128 .f32 → FVec F S1024x128 .f32) (w : Vec F S128x128 .f32)
    (c : Dev nD) (t : Fin cfg0.N) (h : Vec F S4096x128 .f32)
    (hI : ∀ t' : Fin cfg0.N, t'.val % 4 < t.val → View.ld h (chunk (grid0.coords t')) = pay (View.ld (X m c) (chunk (grid0.coords t'))) w)
    (t' : Fin cfg0.N) (ht' : t'.val % 4 < t.val + 1) :
    View.ld (stepP pay (grid0.coords t) (X m c) w h) (chunk (grid0.coords t')) = pay (View.ld (X m c) (chunk (grid0.coords t'))) w := by
  unfold stepP
  by_cases hc : k0_cond1 (grid0.coords t) = 1#1
  · have ht : t.val < 4 := (cond1_iff t).mp hc
    rw [if_pos hc]
    by_cases he : t'.val % 4 = t.val % 4
    · rw [ld_chunk_same t t' he ((chunk (grid0.coords t)).overlay h _), ld_chunk_same t t' he (X m c)]
      exact ld_overlay_self _ _ _
    · rw [ld_overlay_other _ _ (chunk_disjoint t t' (fun e => he e.symm))]
      exact hI t' (by have := Nat.mod_eq_of_lt ht; omega)
  · have ht : ¬ t.val < 4 := fun e => hc ((cond1_iff t).mpr e)
    rw [if_neg hc]
    exact hI t' (by have := Nat.mod_lt t'.val (show 0 < 4 by decide); omega)

/-- Under the invariant the accumulator the body leaves at point `t` is the closed fold. -/
theorem stepA_eq (c : Dev nD) (t : Fin cfg0.N) (a : Vec F S1024x128 .f32) (h s : Vec F S4096x128 .f32)
    (hI : Inv m c t.val a h s) :
    stepA (grid0.coords t) (X m c) (Wi m c) (Ws m c) (Lb m c t) (Ub m c t) a h s = ACC m c t.val := by
  have h1 := proj_after m k0_pay1 (Wi m c) c t h (fun t' ht' => (hI.1 t' ht').1) t (Nat.lt_succ_of_le (Nat.mod_le _ _))
  have h2 := proj_after m k0_pay2 (Ws m c) c t s (fun t' ht' => (hI.1 t' ht').2) t (Nat.lt_succ_of_le (Nat.mod_le _ _))
  unfold stepA
  rw [h1, h2]
  obtain ⟨n, hn⟩ : ∃ n, t.val = n := ⟨_, rfl⟩
  have hp : ptOf n = t := hn ▸ ptOf_val t
  rw [hn]
  cases n with
  | zero =>
    show _ = k0_pay4 (P1 m c (ptOf 0)) (P2 m c (ptOf 0)) (accIn (grid0.coords (ptOf 0)) (k0_pay3 (F := F))) (Lb m c (ptOf 0)) (Ub m c (ptOf 0))
    rw [hp]
    have hc2 : cond2 (grid0.coords t) := (cond2_iff t).mpr (by rw [hn])
    unfold accIn; rw [if_pos hc2, if_pos hc2]; rfl
  | succ n =>
    show _ = k0_pay4 (P1 m c (ptOf (n + 1))) (P2 m c (ptOf (n + 1))) (accIn (grid0.coords (ptOf (n + 1))) (ACC m c n)) (Lb m c (ptOf (n + 1))) (Ub m c (ptOf (n + 1)))
    rw [hp]
    have ha : accIn (grid0.coords t) a = accIn (grid0.coords t) (ACC m c n) := by
      unfold accIn
      by_cases hc2 : cond2 (grid0.coords t)
      · rw [if_pos hc2, if_pos hc2]
      · rw [if_neg hc2, if_neg hc2]
        have : t.val % 4 ≠ 0 := fun e => hc2 ((cond2_iff t).mpr e)
        have := hI.2 this
        rw [hn] at this; exact this
    rw [ha]; rfl

theorem Inv_step (c : Dev nD) (t : Fin cfg0.N) (a : Vec F S1024x128 .f32) (h s : Vec F S4096x128 .f32)
    (hI : Inv m c t.val a h s) :
    Inv m c (t.val + 1)
      (stepA (grid0.coords t) (X m c) (Wi m c) (Ws m c) (Lb m c t) (Ub m c t) a h s)
      (stepP k0_pay1 (grid0.coords t) (X m c) (Wi m c) h)
      (stepP k0_pay2 (grid0.coords t) (X m c) (Ws m c) s) :=
  ⟨fun t' ht' => ⟨proj_after m k0_pay1 (Wi m c) c t h (fun t'' h'' => (hI.1 t'' h'').1) t' ht',
      proj_after m k0_pay2 (Ws m c) c t s (fun t'' h'' => (hI.1 t'' h'').2) t' ht'⟩,
    fun _ => stepA_eq m c t a h s hI⟩

end Cert.Kernel.Hand

end
-- ==== Proof.HandK.Data.lean ====
/-
  The pipeline's proof data and its run.

  The arrays are as the region finds them; every input window's buffer holds its block before and after the body;
  the output's buffer holds the rectified closed fold where the body stores it (the last chunk of a row block) and
  is handed back as found elsewhere. Between points the three scratch buffers are owned at SOME contents satisfying
  the invariant: nothing is known of them before the first point, and nothing is kept of them after the last.
-/
import proofs.«148269_g26044681683717_cont_sun_m_400_15_alg».proof.Proof.HandK.Body
import proofs.«148269_g26044681683717_cont_sun_m_400_15_alg».proof.Proof.HandK.Inv

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant as a resource -/

/-- The scratch operands: the accumulator and the two projections. -/
abbrev scA : Memref sig .tc .vmem S1024x128 .f32 := Memref.whole cc0_scratch0
abbrev scH : Memref sig .tc .vmem S4096x128 .f32 := Memref.whole cc0_scratch1
abbrev scS : Memref sig .tc .vmem S4096x128 .f32 := Memref.whole cc0_scratch2

/-- What the launch hands the region: the three scratch buffers at some contents and the generator register. -/
theorem PhiA_eq (c : Dev nD) :
    (Pipeline.ΦA spec0 c : sProp 𝕄)
      = iprop(iprop((∃ d, owns (c : Thread nD τ) scA fullShare d) ∗ (∃ d, owns (c : Thread nD τ) scH fullShare d) ∗ (∃ d, owns (c : Thread nD τ) scS fullShare d)) ∗ (∃ r, prngReg c r)) := by
  unfold Pipeline.ΦA; rw [scopedRest0_eq]; simp only [scA, scH, scS, owns_whole]; try rfl

/-- Before point `n`: the scratch buffers at contents the invariant admits. -/
def PhiS (c : Dev nD) (n : ℕ) : sProp 𝕄 :=
  iprop(iprop(∃ a h s, ⌜Inv m c n a h s⌝ ∗ owns (c : Thread nD τ) scA fullShare a ∗ owns (c : Thread nD τ) scH fullShare h ∗ owns (c : Thread nD τ) scS fullShare s) ∗ (∃ r, prngReg c r))

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## Where the windows are idle and written back -/

theorem live_in : ∀ (w : Fin cfg0.W) (t : Fin cfg0.N), w.val < 5 → cfg0.idle w (grid0.coords t) = false :=
  (by decide +kernel : ∀ (w : Fin 6) (t : Fin grid0.N), w.val < 5 → cfg0.idle w (grid0.coords t) = false)
theorem idle5_iff : ∀ t : Fin cfg0.N, cfg0.idle 5 (grid0.coords t) = true ↔ t.val % 4 ≠ 3 :=
  (by decide +kernel : ∀ t : Fin grid0.N, cfg0.idle 5 (grid0.coords t) = true ↔ t.val % 4 ≠ 3)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves_in (c : Dev nD) (w : Fin cfg0.W) (hw : w.val < 5) (t : Fin cfg0.N) :
    (dats m 0 c).leavesExact w t = owns (c : Thread nD τ) ((cfg0.win w).stage (cfg0.slots t w)) fullShare ((dats m 0 c).after w t) := by
  unfold Dat.leavesExact; rw [live_in w t hw]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves_in m c 0 (by decide) t, leaves_in m c 1 (by decide) t, leaves_in m c 2 (by decide) t, leaves_in m c 3 (by decide) t,
    leaves_in m c 4 (by decide) t, after0_0, after0_1, after0_2, after0_3, after0_4]
  rw [iblk0_eq m c t, iblk1_eq m c t, iblk2_eq m c t]
  unfold PhiS
  iintro ⟨⟨⟨%a, %h, %s, %hI, HA, HH, HS⟩, Hg⟩, Ho, ⟨%d0, H0⟩, ⟨%d1, H1⟩, ⟨%d2, H2⟩, ⟨%d3, H3⟩, ⟨%d4, H4⟩, ⟨%d5, H5⟩⟩
  iapply (body_spec c (grid0.coords t) _ _ _ _ _ _ _ _ _ _ _ _ _ _ _ _ _ _ (X m c) (Wi m c) (Ws m c) (Lb m c t) (Ub m c t)
    ((dats m 0 c).before 5 t d5) a h s Set.univ _)
  isplitl [H0]; · iexact H0
  isplitl [H1]; · iexact H1
  isplitl [H2]; · iexact H2
  isplitl [H3]; · iexact H3
  isplitl [H4]; · iexact H4
  isplitl [H5]; · iexact H5
  isplitl [HA]; · iexact HA
  isplitl [HH]; · iexact HH
  isplitl [HS]; · iexact HS
  iintro ⟨H0, H1, H2, H3, H4, H5, HA, HH, HS⟩
  isplitl [HA HH HS Hg]
  · isplitl [HA HH HS]
    · iexists _, _, _
      isplitr; · ipureintro; exact Inv_step m c t a h s hI
      isplitl [HA]; · iexact HA
      isplitl [HH]; · iexact HH
      iexact HS
    iexact Hg
  isplitl [Ho]; · iexact Ho
  isplitl [H0]; · iexact H0
  isplitl [H1]; · iexact H1
  isplitl [H2]; · iexact H2
  isplitl [H3]; · iexact H3
  isplitl [H4]; · iexact H4
  by_cases h3 : t.val % 4 = 3
  · have hc3 : k0_cond3 (grid0.coords t) = 1#1 := (cond3_iff t).mpr h3
    have hlive : cfg0.idle 5 (grid0.coords t) = false := by
      cases hq : cfg0.idle 5 (grid0.coords t) with
      | false => rfl
      | true => exact absurd h3 ((idle5_iff t).mp hq)
    rw [show (dats m 0 c).leavesExact 5 t = owns (c : Thread nD τ) (st0_5 t) fullShare ((dats m 0 c).after 5 t) from by
      unfold Dat.leavesExact; rw [hlive], after0_5]
    unfold stepO outAt
    rw [if_pos hc3, stepA_eq m c t a h s hI]
    iexact H5
  · have hc3 : ¬ k0_cond3 (grid0.coords t) = 1#1 := fun e => h3 ((cond3_iff t).mp e)
    rw [Dat.leavesExact_idle (dats m 0 c) 5 t ((idle5_iff t).mpr h3)
      (by cases hq : (cfg0.win 5).flush t with
          | false => rfl
          | true => exact absurd ((flush0_5 t).mp hq) h3)]
    unfold stepO
    rw [if_neg hc3]
    iexists d5; iexact H5

theorem body_obligation (c : Dev nD) : BodyObligation (dats (F := F) m 0 c) (defs₀ (F := F)) Variants.none () Set.univ := fun t => by
  rw [bigSep_W0, bigSep_W0]
  exact sound_body m c t

/-! ## Before the first point and after the last -/

theorem hin (c : Dev nD) : Pipeline.ΦA spec0 c ⊢ (dats m 0 c).Φ 0 := by
  rw [show (dats m 0 c).Φ 0 = PhiS m c 0 from rfl, PhiA_eq]
  unfold PhiS
  iintro ⟨⟨⟨%a, HA⟩, ⟨%h, HH⟩, ⟨%s, HS⟩⟩, Hg⟩
  isplitl [HA HH HS]
  · iexists a, h, s
    isplitr; · ipureintro; exact Inv_zero m c a h s
    isplitl [HA]; · iexact HA
    isplitl [HH]; · iexact HH
    iexact HS
  iexact Hg

theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨%a, %h, %s, -, HA, HH, HS⟩, Hg⟩
  isplitl [HA HH HS]
  · isplitl [HA]; · iexists a; iexact HA
    isplitl [HH]; · iexists h; iexact HH
    iexists s; iexact HS
  iexact Hg

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: every weakly fair execution ends, faults nowhere, and leaves the five argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.Hand.Spec.lean ====
/-
  What one call of the kernel body does to the buffers it is handed, as pure functions of their contents, and
  what the carried scratch buffers hold after each grid point, in closed form over the argument arrays.

  The grid is 4 x 4, visited row-major: point t is row block i = t / 4, contraction chunk k = t % 4. At a point
  the body (1) if i = 0 overwrites rows [1024 k, 1024 k + 1024) of the two projection scratches with
  x[those rows] * W_irr and x[those rows] * W_sol; (2) if k = 0 zeroes the accumulator; (3) adds
  L[i,k] * h_irr[chunk k] + U[i,k] * h_sol[chunk k] to the accumulator; (4) if k = 3 stores max(acc, 0) to the
  output block. Everything is stated at any float instance: the sums stay in the body's own order.
-/
import proofs.«148269_g26044681683717_cont_sun_m_400_15_alg».proof.Proof.Gen.KernelIdeal.Skeleton
import proofs.«148269_g26044681683717_cont_sun_m_400_15_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## One call of the body -/

/-- The condition of the body's second branch (reset the accumulator), from the grid coordinates. -/
abbrev cond2 (i : grid0.Coords) : Prop :=
  (Scalar.cmpi .ne (Scalar.extui (Scalar.cmpi .eq (BitVec.ofNat 32 (i 1).val) 0#32)) 0#32) = 1#1

/-- Rows [1024 k, 1024 k + 1024) of a 4096 x 128 buffer, k the point's second coordinate. -/
abbrev chunk (i : grid0.Coords) : Rect S4096x128 := Rect.unit (s := S4096x128) (k0_off2 i) S1024x128.size (k0_off2_inb i)

/-- A projection scratch after the body's first branch: at row block 0 the point's chunk is overwritten by the
    projection of the same rows of x, elsewhere nothing changes. `pay` is the projection's payload. -/
def stepP (pay : Vec F S1024x128 .f32 → Vec F S128x128 .f32 → FVec F S1024x128 .f32) (i : grid0.Coords)
    (x : Vec F S4096x128 .f32) (w : Vec F S128x128 .f32) (h : Vec F S4096x128 .f32) : Vec F S4096x128 .f32 :=
  if k0_cond1 i = 1#1 then (chunk i).overlay h (pay (View.ld x (chunk i)) w) else h

/-- The accumulator as the body's third step finds it: zero at the first chunk of a row block. -/
def accIn (i : grid0.Coords) (a : Vec F S1024x128 .f32) : Vec F S1024x128 .f32 :=
  if cond2 i then k0_pay3 (F := F) else a

/-- The accumulator after the body. -/
def stepA (i : grid0.Coords) (x : Vec F S4096x128 .f32) (wi ws : Vec F S128x128 .f32) (lb ub : Vec F S1024x1024 .f32)
    (a : Vec F S1024x128 .f32) (h s : Vec F S4096x128 .f32) : Vec F S1024x128 .f32 :=
  k0_pay4 (View.ld (stepP k0_pay1 i x wi h) (chunk i)) (View.ld (stepP k0_pay2 i x ws s) (chunk i)) (accIn i a) lb ub

/-- The output's staging buffer after the body: the rectified accumulator at the last chunk, untouched before. -/
def stepO (i : grid0.Coords) (x : Vec F S4096x128 .f32) (wi ws : Vec F S128x128 .f32) (lb ub : Vec F S1024x1024 .f32)
    (o a : Vec F S1024x128 .f32) (h s : Vec F S4096x128 .f32) : Vec F S1024x128 .f32 :=
  if k0_cond3 i = 1#1 then k0_pay5 (stepA i x wi ws lb ub a h s) else o

/-! ## The grid's points -/

variable (m : (ℓ : Loc nD τ sig) → Buf (Elt F) ℓ)

/-- Point `n` of the 16 (taken mod 16, so that it is total). -/
def ptOf (n : ℕ) : Fin cfg0.N := ⟨n % 16, lt_of_lt_of_eq (Nat.mod_lt _ (by decide)) N_0.symm⟩

theorem ptOf_val (t : Fin cfg0.N) : ptOf t.val = t :=
  Fin.ext (Nat.mod_eq_of_lt (lt_of_lt_of_eq t.isLt N_0))

/-- The three windows whose block never moves, read once: x, W_irr, W_sol as the region finds them. -/
def X (c : Dev nD) : Vec F S4096x128 .f32 := iblk m c 0 (ptOf 0)
def Wi (c : Dev nD) : Vec F S128x128 .f32 := iblk m c 1 (ptOf 0)
def Ws (c : Dev nD) : Vec F S128x128 .f32 := iblk m c 2 (ptOf 0)
/-- The blocks of L and U that point `t` is handed. -/
abbrev Lb (c : Dev nD) (t : Fin cfg0.N) : Vec F S1024x1024 .f32 := iblk m c 3 t
abbrev Ub (c : Dev nD) (t : Fin cfg0.N) : Vec F S1024x1024 .f32 := iblk m c 4 t

/-- The projections of the rows of x that point `t`'s chunk names: what the two scratches hold there once
    row block 0 has passed that chunk. -/
def P1 (c : Dev nD) (t : Fin cfg0.N) : Vec F S1024x128 .f32 := k0_pay1 (View.ld (X m c) (chunk (grid0.coords t))) (Wi m c)
def P2 (c : Dev nD) (t : Fin cfg0.N) : Vec F S1024x128 .f32 := k0_pay2 (View.ld (X m c) (chunk (grid0.coords t))) (Ws m c)

/-- The accumulator after point `n`, in the body's own order: the point's two products added to what the point
    before left, or to zero at the first chunk of a row block. -/
def ACC (c : Dev nD) : ℕ → Vec F S1024x128 .f32
  | 0 => k0_pay4 (P1 m c (ptOf 0)) (P2 m c (ptOf 0)) (accIn (grid0.coords (ptOf 0)) (k0_pay3 (F := F))) (Lb m c (ptOf 0)) (Ub m c (ptOf 0))
  | n + 1 => k0_pay4 (P1 m c (ptOf (n + 1))) (P2 m c (ptOf (n + 1))) (accIn (grid0.coords (ptOf (n + 1))) (ACC c n))
      (Lb m c (ptOf (n + 1))) (Ub m c (ptOf (n + 1)))

/-- What the output's staging buffer holds after point `t` where the body stores it (the last chunk of a row block). -/
def outAt (c : Dev nD) (t : Fin cfg0.N) : Vec F S1024x128 .f32 := k0_pay5 (ACC m c t.val)

/-- What the three scratches hold before point `n` (after `n` points): every chunk row block 0 has passed holds its
    projections, and inside a row block the accumulator holds the fold so far. Nothing is said of the rest. -/
def Inv (c : Dev nD) (n : ℕ) (a : Vec F S1024x128 .f32) (h s : Vec F S4096x128 .f32) : Prop :=
  (∀ t : Fin cfg0.N, t.val % 4 < n →
      View.ld h (chunk (grid0.coords t)) = P1 m c t ∧ View.ld s (chunk (grid0.coords t)) = P2 m c t)
  ∧ (n % 4 ≠ 0 → a = ACC m c (n - 1))

theorem Inv_zero (c : Dev nD) (a : Vec F S1024x128 .f32) (h s : Vec F S4096x128 .f32) : Inv m c 0 a h s :=
  ⟨fun _ ht => absurd ht (Nat.not_lt_zero _), fun h0 => absurd rfl h0⟩

end Cert.KernelIdeal.Hand

end
-- ==== Proof.Hand.Body.lean ====
/-
  One call of the kernel body as a triple: handed its nine buffers at any contents, it runs without fault and
  hands them back, the five inputs untouched, the output, the accumulator and the two projection scratches at the
  step functions of what it found (Spec). Stated for any grid coordinates and at any float instance.
-/
import proofs.«148269_g26044681683717_cont_sun_m_400_15_alg».proof.Proof.Hand.Spec
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Reading buffers back

What a load reads of a whole buffer named by the contents it reads, what a buffer reads after one store through a
rectangle, after a last store through its whole shape, and what a load through a store's own rectangle reads. -/

section Reads

variable {Val : EltTy → Type} {sg : RefSig} {κ : Kind} {sp : Space} {s : Shape} {e : EltTy}

/-- The zero offsets of rank 2 are the constant zero function. -/
theorem zeros2 : (![0, 0] : Fin 2 → ℕ) = fun _ => 0 := by
  funext a
  match a with
  | ⟨0, _⟩ => rfl
  | ⟨1, _⟩ => rfl

/-- A load through a rectangle, of the raw contents of a whole buffer that read `X`, reads `X` at the rectangle's indices. -/
theorem readAt_unread {m : Memref sg κ sp s e} (hm : m.IsWhole) (X : s.Idx → Val e) (r : Rect s) :
    m.view.readAt Val r.toLoadRect (hm.unread X) = View.ld X r := by
  rw [View.readAt_eq_ld, hm.read_unread]

/-- Through the whole shape (rank 2, zero offsets, the shape's own sizes) it reads `X` itself. -/
theorem readAt_unread_zero {d : Fin 2 → ℕ} {m : Memref sg κ sp ⟨2, d⟩ e} (hm : m.IsWhole)
    (inb : ∀ a, (![0, 0] : Fin 2 → ℕ) a + d a ≤ d a) (X : Shape.Idx ⟨2, d⟩ → Val e) :
    m.view.readAt Val (Rect.unit (s := ⟨2, d⟩) ![0, 0] d inb).toLoadRect (hm.unread X) = X := by
  rw [readAt_unread]
  exact View.ld_unit_zero (S := ⟨2, d⟩) zeros2 inb X

/-- Read through a rectangle, `X` overlaid on that rectangle by `G` is `G`. -/
theorem ld_overlay (r : Rect s) (X : s.Idx → Val e) (G : r.shape.Idx → Val e) : View.ld (r.overlay X G) r = G :=
  funext fun x => r.overlay_emb X G x

/-- After ONE store through a rectangle a buffer reads as before, overlaid on the rectangle by the payload. -/
theorem read_writes_one (v : View sg κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy, View.writes_nil]

/-- After a LAST store through the whole shape (zero offsets however spelt) a buffer reads the payload. -/
theorem read_writes_cons_unit_zero {S : Shape} (v : View sg κ sp S e) (f : v.ty.Contents Val) {off : Fin S.rank → ℕ}
    (hz : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  subst hz
  funext y
  have h := View.read_writes_cons_emb v f (Rect.whole S) w L y
  rwa [Rect.emb_whole_apply] at h

/-- The same at rank 2 with the offsets spelt `![0, 0]`. -/
theorem read_writes_cons_zero {d : Fin 2 → ℕ} (v : View sg κ sp ⟨2, d⟩ e) (f : v.ty.Contents Val)
    (inb : ∀ a, (![0, 0] : Fin 2 → ℕ) a + d a ≤ d a) (w : Shape.Idx ⟨2, d⟩ → Val e) (L : List (View.Piece Val ⟨2, d⟩ e)) :
    v.read Val (v.writes Val f ((⟨Rect.unit (s := ⟨2, d⟩) ![0, 0] d inb, w⟩ : View.Piece Val ⟨2, d⟩ e) :: L)) = w :=
  read_writes_cons_unit_zero (S := ⟨2, d⟩) v f zeros2 inb w L

end Reads

/-! ## The step functions, branch by branch -/

section Steps

variable (i : grid0.Coords)

/-- The first branch's rectangle is the point's chunk: the two offset chains are the same operations. -/
theorem rect1_eq (h1 : k0_cond1 i = 1#1) :
    Rect.unit (s := S4096x128) (k0_off1 i) S1024x128.size (k0_off1_inb i h1)
      = Rect.unit (s := S4096x128) (k0_off2 i) S1024x128.size (k0_off2_inb i) := rfl

variable (pay : Vec F S1024x128 .f32 → Vec F S128x128 .f32 → FVec F S1024x128 .f32)
  (x : Vec F S4096x128 .f32) (w : Vec F S128x128 .f32) (h : Vec F S4096x128 .f32) (a : Vec F S1024x128 .f32)

theorem stepP_pos (h1 : k0_cond1 i = 1#1) :
    stepP pay i x w h = (chunk i).overlay h (pay (View.ld x (chunk i)) w) := if_pos h1

theorem stepP_neg (h1 : ¬ k0_cond1 i = 1#1) : stepP pay i x w h = h := if_neg h1

/-- At row block 0 the point's chunk of a projection scratch, after the first branch, is the projection. -/
theorem ld_stepP_pos (h1 : k0_cond1 i = 1#1) :
    View.ld (stepP pay i x w h) (chunk i) = pay (View.ld x (chunk i)) w := by
  rw [stepP_pos i pay x w h h1]
  exact ld_overlay (chunk i) h _

theorem ld_stepP_neg (h1 : ¬ k0_cond1 i = 1#1) :
    View.ld (stepP pay i x w h) (chunk i) = View.ld h (chunk i) := by
  rw [stepP_neg i pay x w h h1]

theorem accIn_pos (h2 : cond2 i) : accIn i a = k0_pay3 (F := F) := if_pos h2

theorem accIn_neg (h2 : ¬ cond2 i) : accIn i a = a := if_neg h2

end Steps

/-! ## Handing the stored buffers back

The accumulator's payload against `stepA`: the two chunk loads and the accumulator load read what the first two branches
left, by the case of each branch (`h1`, `h2` are the case's facts, either way round). -/

/-- Closes `k0_pay4 (what the run loaded) = stepA …` after the run's names are opened. -/
syntax "acc_back " term:max term:max term:max : tactic
macro_rules
  | `(tactic| acc_back $i $h1 $h2) => `(tactic| (
      rw [stepA]
      first
        | rw [ld_stepP_pos $i _ _ _ _ $h1, ld_stepP_pos $i _ _ _ _ $h1]
        | rw [ld_stepP_neg $i _ _ _ _ $h1, ld_stepP_neg $i _ _ _ _ $h1]
      first
        | rw [accIn_pos $i _ $h2]
        | rw [accIn_neg $i _ $h2]
      simp only [readAt_unread_zero]
      try simp only [rect1_eq $i $h1]
      simp only [readAt_unread, View.readCov_cons_toLoadRect, read_writes_cons_zero]))

set_option maxHeartbeats 4000000 in
theorem body_spec (c : Dev nD) (i : grid0.Coords)
    (arg2 : Memref sig .tc .vmem S4096x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S4096x128 .f32) (harg9 : arg9.IsWhole)
    (arg10 : Memref sig .tc .vmem S4096x128 .f32) (harg10 : arg10.IsWhole)
    (x : Vec F S4096x128 .f32) (wi ws : Vec F S128x128 .f32) (lb ub : Vec F S1024x1024 .f32) (o a : Vec F S1024x128 .f32)
    (h s : Vec F S4096x128 .f32) (E : Set ℕ) (K : PUnit → sProp 𝕄) :
    iprop(owns (c : Thread nD τ) arg2 fullShare x ∗ owns (c : Thread nD τ) arg3 fullShare wi ∗ owns (c : Thread nD τ) arg4 fullShare ws
        ∗ owns (c : Thread nD τ) arg5 fullShare lb ∗ owns (c : Thread nD τ) arg6 fullShare ub ∗ owns (c : Thread nD τ) arg7 fullShare o
        ∗ owns (c : Thread nD τ) arg8 fullShare a ∗ owns (c : Thread nD τ) arg9 fullShare h ∗ owns (c : Thread nD τ) arg10 fullShare s
        ∗ (iprop(owns (c : Thread nD τ) arg2 fullShare x ∗ owns (c : Thread nD τ) arg3 fullShare wi ∗ owns (c : Thread nD τ) arg4 fullShare ws
            ∗ owns (c : Thread nD τ) arg5 fullShare lb ∗ owns (c : Thread nD τ) arg6 fullShare ub
            ∗ owns (c : Thread nD τ) arg7 fullShare (stepO i x wi ws lb ub o a h s)
            ∗ owns (c : Thread nD τ) arg8 fullShare (stepA i x wi ws lb ub a h s)
            ∗ owns (c : Thread nD τ) arg9 fullShare (stepP k0_pay1 i x wi h)
            ∗ owns (c : Thread nD τ) arg10 fullShare (stepP k0_pay2 i x ws s)) -∗ K ⟨⟩))
      ⊢ wp frame (wpE (defs₀ (F := F)) Variants.none c none) E
          (cc0__body i arg2 harg2 arg3 harg3 arg4 harg4 arg5 harg5 arg6 harg6 arg7 harg7 arg8 harg8 arg9 harg9 arg10 harg10) K := by
  by_cases hc1 : k0_cond1 i = 1#1 <;> by_cases hc2 : cond2 i <;> by_cases hc3 : k0_cond3 i = 1#1 <;>
  · simp only [cc0__body_eq_skeleton]; unfold cc0__body_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    sl_exec (disch := first | exact hc1 | exact hc2 | exact hc3)
    sl_step
    iapply Hk
    -- the five inputs, untouched
    isplitl [H2]
    · iexists _; isplitr
      · ipureintro; exact harg2.read_unread _
      · iexact H2
    isplitl [H3]
    · iexists _; isplitr
      · ipureintro; exact harg3.read_unread _
      · iexact H3
    isplitl [H4]
    · iexists _; isplitr
      · ipureintro; exact harg4.read_unread _
      · iexact H4
    isplitl [H5]
    · iexists _; isplitr
      · ipureintro; exact harg5.read_unread _
      · iexact H5
    isplitl [H6]
    · iexists _; isplitr
      · ipureintro; exact harg6.read_unread _
      · iexact H6
    -- the output: untouched before the last chunk, the rectified accumulator at it
    isplitl [H7]
    · iexists _; isplitr
      rotate_left
      · iexact H7
      · ipureintro
        sl_unfold_run_names
        first
          | (rw [stepO, if_neg hc3]; exact harg7.read_unread _)
          | (rw [stepO, if_pos hc3]; acc_back i hc1 hc2)
    -- the accumulator: its last store covers it
    isplitl [H8]
    · iexists _; isplitr
      rotate_left
      · iexact H8
      · ipureintro
        sl_unfold_run_names
        acc_back i hc1 hc2
    -- the two projection scratches: one store through the point's chunk at row block 0, untouched elsewhere
    isplitl [H9]
    · iexists _; isplitr
      rotate_left
      · iexact H9
      · ipureintro
        sl_unfold_run_names
        first
          | (rw [stepP_neg i _ _ _ _ hc1]; exact harg9.read_unread _)
          | (rw [stepP_pos i _ _ _ _ hc1]
             simp only [rect1_eq i hc1, readAt_unread_zero]
             simp only [readAt_unread, read_writes_one, Memref.IsWhole.read_unread])
    · iexists _; isplitr
      rotate_left
      · iexact H10
      · ipureintro
        sl_unfold_run_names
        first
          | (rw [stepP_neg i _ _ _ _ hc1]; exact harg10.read_unread _)
          | (rw [stepP_pos i _ _ _ _ hc1]
             simp only [rect1_eq i hc1, readAt_unread_zero]
             simp only [readAt_unread, read_writes_one, Memref.IsWhole.read_unread])

end Cert.KernelIdeal.Hand

end
-- ==== Proof.Hand.Inv.lean ====
/-
  The invariant of the three scratch buffers is kept by one call of the body, and under it the accumulator the
  body leaves is the closed fold.

  Row block 0 (points 0..3) fills chunk k = t of the two projection scratches; the rows of two different chunks are
  disjoint, so filling one leaves the others as they were; from point 4 on the scratches are only read. The
  accumulator after point t is the body's sum of the point's two products and what it found: zero at k = 0, else
  what point t - 1 left, which the invariant names.
-/
import proofs.«148269_g26044681683717_cont_sun_m_400_15_alg».proof.Proof.Hand.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-! ## The grid's facts, decided once over the sixteen points -/

theorem off2_at : ∀ t : Fin cfg0.N, k0_off2 (grid0.coords t) = ![1024 * (t.val % 4), 0] :=
  (by decide +kernel : ∀ t : Fin grid0.N, k0_off2 (grid0.coords t) = ![1024 * (t.val % 4), 0])
theorem cond1_iff : ∀ t : Fin cfg0.N, k0_cond1 (grid0.coords t) = 1#1 ↔ t.val < 4 :=
  (by decide +kernel : ∀ t : Fin grid0.N, k0_cond1 (grid0.coords t) = 1#1 ↔ t.val < 4)
theorem cond2_iff : ∀ t : Fin cfg0.N, cond2 (grid0.coords t) ↔ t.val % 4 = 0 :=
  (by decide +kernel : ∀ t : Fin grid0.N, cond2 (grid0.coords t) ↔ t.val % 4 = 0)
theorem cond3_iff : ∀ t : Fin cfg0.N, k0_cond3 (grid0.coords t) = 1#1 ↔ t.val % 4 = 3 :=
  (by decide +kernel : ∀ t : Fin grid0.N, k0_cond3 (grid0.coords t) = 1#1 ↔ t.val % 4 = 3)
/-- x, W_irr and W_sol are one block each: its index is (0, 0) at every point. -/
theorem idx0_zero : ∀ (t : Fin cfg0.N) (a : Fin 2), win0_0.index t a = 0 :=
  (by decide +kernel : ∀ (t : Fin grid0.N) (a : Fin 2), win0_0.index t a = 0)
theorem idx1_zero : ∀ (t : Fin cfg0.N) (a : Fin 2), win0_1.index t a = 0 :=
  (by decide +kernel : ∀ (t : Fin grid0.N) (a : Fin 2), win0_1.index t a = 0)
theorem idx2_zero : ∀ (t : Fin cfg0.N) (a : Fin 2), win0_2.index t a = 0 :=
  (by decide +kernel : ∀ (t : Fin grid0.N) (a : Fin 2), win0_2.index t a = 0)

/-! ## Chunks -/

/-- Two points with the same second coordinate name the same rows: each inner index lands on the same cell, -/
theorem chunk_idx_same (t t' : Fin cfg0.N) (h : t'.val % 4 = t.val % 4) (x : (chunk (grid0.coords t')).shape.Idx) :
    (chunk (grid0.coords t')).idx x = (chunk (grid0.coords t)).idx x :=
  funext fun a => Fin.ext (by
    show k0_off2 (grid0.coords t') a + 1 * (x a).val = k0_off2 (grid0.coords t) a + 1 * (x a).val
    rw [off2_at t', off2_at t, h])

/-- so a load through either reads the same. -/
theorem ld_chunk_same (t t' : Fin cfg0.N) (h : t'.val % 4 = t.val % 4) (Y : Vec F S4096x128 .f32) :
    View.ld Y (chunk (grid0.coords t')) = View.ld Y (chunk (grid0.coords t)) :=
  funext fun x => congrArg Y (chunk_idx_same t t' h x)

/-- Two points with different second coordinates name disjoint rows. -/
theorem chunk_disjoint (t t' : Fin cfg0.N) (h : t.val % 4 ≠ t'.val % 4) :
    Disjoint (chunk (grid0.coords t)).set (chunk (grid0.coords t')).set := by
  refine Rect.unit_disjoint (0 : Fin 2) ?_
  rw [off2_at t, off2_at t']
  show 1024 * (t.val % 4) + 1024 ≤ 1024 * (t'.val % 4) ∨ 1024 * (t'.val % 4) + 1024 ≤ 1024 * (t.val % 4)
  omega

/-- Reading back the rows just overwritten gives what was written; -/
theorem ld_overlay_self (i : grid0.Coords) (h : Vec F S4096x128 .f32) (w : Vec F S1024x128 .f32) :
    View.ld ((chunk i).overlay h w) (chunk i) = w :=
  funext fun x => (chunk i).overlay_emb h w x

/-- reading rows disjoint from them gives what was there. -/
theorem ld_overlay_other (i i' : grid0.Coords) (hd : Disjoint (chunk i).set (chunk i').set)
    (h : Vec F S4096x128 .f32) (w : Vec F S1024x128 .f32) :
    View.ld ((chunk i).overlay h w) (chunk i') = View.ld h (chunk i') :=
  funext fun x => (chunk i).overlay_of_not_mem h w (Finset.disjoint_right.mp hd ((chunk i').toLoadRect.idx_mem x))

/-! ## The three windows that never move -/

theorem iblk0_eq (c : Dev nD) (t : Fin cfg0.N) : (iblk m c 0 t : Vec F S4096x128 .f32) = X m c := by
  funext y
  show V m c main_arg0 (((cfg0.win 0).blk t).view.emb y) = V m c main_arg0 (((cfg0.win 0).blk (ptOf 0)).view.emb y)
  refine congrArg (V m c main_arg0) (funext fun a => Fin.ext ?_)
  show win0_0.index t a * S4096x128.size a + 1 * (y a).val = win0_0.index (ptOf 0) a * S4096x128.size a + 1 * (y a).val
  rw [idx0_zero t a, idx0_zero (ptOf 0) a]

theorem iblk1_eq (c : Dev nD) (t : Fin cfg0.N) : (iblk m c 1 t : Vec F S128x128 .f32) = Wi m c := by
  funext y
  show V m c main_arg3 (((cfg0.win 1).blk t).view.emb y) = V m c main_arg3 (((cfg0.win 1).blk (ptOf 0)).view.emb y)
  refine congrArg (V m c main_arg3) (funext fun a => Fin.ext ?_)
  show win0_1.index t a * S128x128.size a + 1 * (y a).val = win0_1.index (ptOf 0) a * S128x128.size a + 1 * (y a).val
  rw [idx1_zero t a, idx1_zero (ptOf 0) a]

theorem iblk2_eq (c : Dev nD) (t : Fin cfg0.N) : (iblk m c 2 t : Vec F S128x128 .f32) = Ws m c := by
  funext y
  show V m c main_arg4 (((cfg0.win 2).blk t).view.emb y) = V m c main_arg4 (((cfg0.win 2).blk (ptOf 0)).view.emb y)
  refine congrArg (V m c main_arg4) (funext fun a => Fin.ext ?_)
  show win0_2.index t a * S128x128.size a + 1 * (y a).val = win0_2.index (ptOf 0) a * S128x128.size a + 1 * (y a).val
  rw [idx2_zero t a, idx2_zero (ptOf 0) a]

/-! ## One call of the body keeps the invariant -/

/-- After point `t` every chunk with second coordinate at most `t` holds its projection: the point's own chunk is
    the one just written (row block 0) or was there already, the others are untouched. -/
theorem proj_after (pay : Vec F S1024x128 .f32 → Vec F S128x128 .f32 → FVec F S1024x128 .f32) (w : Vec F S128x128 .f32)
    (c : Dev nD) (t : Fin cfg0.N) (h : Vec F S4096x128 .f32)
    (hI : ∀ t' : Fin cfg0.N, t'.val % 4 < t.val → View.ld h (chunk (grid0.coords t')) = pay (View.ld (X m c) (chunk (grid0.coords t'))) w)
    (t' : Fin cfg0.N) (ht' : t'.val % 4 < t.val + 1) :
    View.ld (stepP pay (grid0.coords t) (X m c) w h) (chunk (grid0.coords t')) = pay (View.ld (X m c) (chunk (grid0.coords t'))) w := by
  unfold stepP
  by_cases hc : k0_cond1 (grid0.coords t) = 1#1
  · have ht : t.val < 4 := (cond1_iff t).mp hc
    rw [if_pos hc]
    by_cases he : t'.val % 4 = t.val % 4
    · rw [ld_chunk_same t t' he ((chunk (grid0.coords t)).overlay h _), ld_chunk_same t t' he (X m c)]
      exact ld_overlay_self _ _ _
    · rw [ld_overlay_other _ _ (chunk_disjoint t t' (fun e => he e.symm))]
      exact hI t' (by have := Nat.mod_eq_of_lt ht; omega)
  · have ht : ¬ t.val < 4 := fun e => hc ((cond1_iff t).mpr e)
    rw [if_neg hc]
    exact hI t' (by have := Nat.mod_lt t'.val (show 0 < 4 by decide); omega)

/-- Under the invariant the accumulator the body leaves at point `t` is the closed fold. -/
theorem stepA_eq (c : Dev nD) (t : Fin cfg0.N) (a : Vec F S1024x128 .f32) (h s : Vec F S4096x128 .f32)
    (hI : Inv m c t.val a h s) :
    stepA (grid0.coords t) (X m c) (Wi m c) (Ws m c) (Lb m c t) (Ub m c t) a h s = ACC m c t.val := by
  have h1 := proj_after m k0_pay1 (Wi m c) c t h (fun t' ht' => (hI.1 t' ht').1) t (Nat.lt_succ_of_le (Nat.mod_le _ _))
  have h2 := proj_after m k0_pay2 (Ws m c) c t s (fun t' ht' => (hI.1 t' ht').2) t (Nat.lt_succ_of_le (Nat.mod_le _ _))
  unfold stepA
  rw [h1, h2]
  obtain ⟨n, hn⟩ : ∃ n, t.val = n := ⟨_, rfl⟩
  have hp : ptOf n = t := hn ▸ ptOf_val t
  rw [hn]
  cases n with
  | zero =>
    show _ = k0_pay4 (P1 m c (ptOf 0)) (P2 m c (ptOf 0)) (accIn (grid0.coords (ptOf 0)) (k0_pay3 (F := F))) (Lb m c (ptOf 0)) (Ub m c (ptOf 0))
    rw [hp]
    have hc2 : cond2 (grid0.coords t) := (cond2_iff t).mpr (by rw [hn])
    unfold accIn; rw [if_pos hc2, if_pos hc2]; rfl
  | succ n =>
    show _ = k0_pay4 (P1 m c (ptOf (n + 1))) (P2 m c (ptOf (n + 1))) (accIn (grid0.coords (ptOf (n + 1))) (ACC m c n)) (Lb m c (ptOf (n + 1))) (Ub m c (ptOf (n + 1)))
    rw [hp]
    have ha : accIn (grid0.coords t) a = accIn (grid0.coords t) (ACC m c n) := by
      unfold accIn
      by_cases hc2 : cond2 (grid0.coords t)
      · rw [if_pos hc2, if_pos hc2]
      · rw [if_neg hc2, if_neg hc2]
        have : t.val % 4 ≠ 0 := fun e => hc2 ((cond2_iff t).mpr e)
        have := hI.2 this
        rw [hn] at this; exact this
    rw [ha]; rfl

theorem Inv_step (c : Dev nD) (t : Fin cfg0.N) (a : Vec F S1024x128 .f32) (h s : Vec F S4096x128 .f32)
    (hI : Inv m c t.val a h s) :
    Inv m c (t.val + 1)
      (stepA (grid0.coords t) (X m c) (Wi m c) (Ws m c) (Lb m c t) (Ub m c t) a h s)
      (stepP k0_pay1 (grid0.coords t) (X m c) (Wi m c) h)
      (stepP k0_pay2 (grid0.coords t) (X m c) (Ws m c) s) :=
  ⟨fun t' ht' => ⟨proj_after m k0_pay1 (Wi m c) c t h (fun t'' h'' => (hI.1 t'' h'').1) t' ht',
      proj_after m k0_pay2 (Ws m c) c t s (fun t'' h'' => (hI.1 t'' h'').2) t' ht'⟩,
    fun _ => stepA_eq m c t a h s hI⟩

end Cert.KernelIdeal.Hand

end
-- ==== Proof.Hand.Data.lean ====
/-
  The pipeline's proof data and its run.

  The arrays are as the region finds them; every input window's buffer holds its block before and after the body;
  the output's buffer holds the rectified closed fold where the body stores it (the last chunk of a row block) and
  is handed back as found elsewhere. Between points the three scratch buffers are owned at SOME contents satisfying
  the invariant: nothing is known of them before the first point, and nothing is kept of them after the last.
-/
import proofs.«148269_g26044681683717_cont_sun_m_400_15_alg».proof.Proof.Hand.Body
import proofs.«148269_g26044681683717_cont_sun_m_400_15_alg».proof.Proof.Hand.Inv

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant as a resource -/

/-- The scratch operands: the accumulator and the two projections. -/
abbrev scA : Memref sig .tc .vmem S1024x128 .f32 := Memref.whole cc0_scratch0
abbrev scH : Memref sig .tc .vmem S4096x128 .f32 := Memref.whole cc0_scratch1
abbrev scS : Memref sig .tc .vmem S4096x128 .f32 := Memref.whole cc0_scratch2

/-- What the launch hands the region: the three scratch buffers at some contents and the generator register. -/
theorem PhiA_eq (c : Dev nD) :
    (Pipeline.ΦA spec0 c : sProp 𝕄)
      = iprop(iprop((∃ d, owns (c : Thread nD τ) scA fullShare d) ∗ (∃ d, owns (c : Thread nD τ) scH fullShare d) ∗ (∃ d, owns (c : Thread nD τ) scS fullShare d)) ∗ (∃ r, prngReg c r)) := by
  unfold Pipeline.ΦA; rw [scopedRest0_eq]; simp only [scA, scH, scS, owns_whole]; try rfl

/-- Before point `n`: the scratch buffers at contents the invariant admits. -/
def PhiS (c : Dev nD) (n : ℕ) : sProp 𝕄 :=
  iprop(iprop(∃ a h s, ⌜Inv m c n a h s⌝ ∗ owns (c : Thread nD τ) scA fullShare a ∗ owns (c : Thread nD τ) scH fullShare h ∗ owns (c : Thread nD τ) scS fullShare s) ∗ (∃ r, prngReg c r))

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## Where the windows are idle and written back -/

theorem live_in : ∀ (w : Fin cfg0.W) (t : Fin cfg0.N), w.val < 5 → cfg0.idle w (grid0.coords t) = false :=
  (by decide +kernel : ∀ (w : Fin 6) (t : Fin grid0.N), w.val < 5 → cfg0.idle w (grid0.coords t) = false)
theorem idle5_iff : ∀ t : Fin cfg0.N, cfg0.idle 5 (grid0.coords t) = true ↔ t.val % 4 ≠ 3 :=
  (by decide +kernel : ∀ t : Fin grid0.N, cfg0.idle 5 (grid0.coords t) = true ↔ t.val % 4 ≠ 3)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves_in (c : Dev nD) (w : Fin cfg0.W) (hw : w.val < 5) (t : Fin cfg0.N) :
    (dats m 0 c).leavesExact w t = owns (c : Thread nD τ) ((cfg0.win w).stage (cfg0.slots t w)) fullShare ((dats m 0 c).after w t) := by
  unfold Dat.leavesExact; rw [live_in w t hw]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves_in m c 0 (by decide) t, leaves_in m c 1 (by decide) t, leaves_in m c 2 (by decide) t, leaves_in m c 3 (by decide) t,
    leaves_in m c 4 (by decide) t, after0_0, after0_1, after0_2, after0_3, after0_4]
  rw [iblk0_eq m c t, iblk1_eq m c t, iblk2_eq m c t]
  unfold PhiS
  iintro ⟨⟨⟨%a, %h, %s, %hI, HA, HH, HS⟩, Hg⟩, Ho, ⟨%d0, H0⟩, ⟨%d1, H1⟩, ⟨%d2, H2⟩, ⟨%d3, H3⟩, ⟨%d4, H4⟩, ⟨%d5, H5⟩⟩
  iapply (body_spec c (grid0.coords t) _ _ _ _ _ _ _ _ _ _ _ _ _ _ _ _ _ _ (X m c) (Wi m c) (Ws m c) (Lb m c t) (Ub m c t)
    ((dats m 0 c).before 5 t d5) a h s Set.univ _)
  isplitl [H0]; · iexact H0
  isplitl [H1]; · iexact H1
  isplitl [H2]; · iexact H2
  isplitl [H3]; · iexact H3
  isplitl [H4]; · iexact H4
  isplitl [H5]; · iexact H5
  isplitl [HA]; · iexact HA
  isplitl [HH]; · iexact HH
  isplitl [HS]; · iexact HS
  iintro ⟨H0, H1, H2, H3, H4, H5, HA, HH, HS⟩
  isplitl [HA HH HS Hg]
  · isplitl [HA HH HS]
    · iexists _, _, _
      isplitr; · ipureintro; exact Inv_step m c t a h s hI
      isplitl [HA]; · iexact HA
      isplitl [HH]; · iexact HH
      iexact HS
    iexact Hg
  isplitl [Ho]; · iexact Ho
  isplitl [H0]; · iexact H0
  isplitl [H1]; · iexact H1
  isplitl [H2]; · iexact H2
  isplitl [H3]; · iexact H3
  isplitl [H4]; · iexact H4
  by_cases h3 : t.val % 4 = 3
  · have hc3 : k0_cond3 (grid0.coords t) = 1#1 := (cond3_iff t).mpr h3
    have hlive : cfg0.idle 5 (grid0.coords t) = false := by
      cases hq : cfg0.idle 5 (grid0.coords t) with
      | false => rfl
      | true => exact absurd h3 ((idle5_iff t).mp hq)
    rw [show (dats m 0 c).leavesExact 5 t = owns (c : Thread nD τ) (st0_5 t) fullShare ((dats m 0 c).after 5 t) from by
      unfold Dat.leavesExact; rw [hlive], after0_5]
    unfold stepO outAt
    rw [if_pos hc3, stepA_eq m c t a h s hI]
    iexact H5
  · have hc3 : ¬ k0_cond3 (grid0.coords t) = 1#1 := fun e => h3 ((cond3_iff t).mp e)
    rw [Dat.leavesExact_idle (dats m 0 c) 5 t ((idle5_iff t).mpr h3)
      (by cases hq : (cfg0.win 5).flush t with
          | false => rfl
          | true => exact absurd ((flush0_5 t).mp hq) h3)]
    unfold stepO
    rw [if_neg hc3]
    iexists d5; iexact H5

theorem body_obligation (c : Dev nD) : BodyObligation (dats (F := F) m 0 c) (defs₀ (F := F)) Variants.none () Set.univ := fun t => by
  rw [bigSep_W0, bigSep_W0]
  exact sound_body m c t

/-! ## Before the first point and after the last -/

theorem hin (c : Dev nD) : Pipeline.ΦA spec0 c ⊢ (dats m 0 c).Φ 0 := by
  rw [show (dats m 0 c).Φ 0 = PhiS m c 0 from rfl, PhiA_eq]
  unfold PhiS
  iintro ⟨⟨⟨%a, HA⟩, ⟨%h, HH⟩, ⟨%s, HS⟩⟩, Hg⟩
  isplitl [HA HH HS]
  · iexists a, h, s
    isplitr; · ipureintro; exact Inv_zero m c a h s
    isplitl [HA]; · iexact HA
    isplitl [HH]; · iexact HH
    iexact HS
  iexact Hg

theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨%a, %h, %s, -, HA, HH, HS⟩, Hg⟩
  isplitl [HA HH HS]
  · isplitl [HA]; · iexists a; iexact HA
    isplitl [HH]; · iexists h; iexact HH
    iexists s; iexact HS
  iexact Hg

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: every weakly fair execution ends, faults nowhere, and leaves the five argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.Hand.ValueSpec.lean ====
/-
  The function both programs compute, on the extended reals, entry by entry:
  out[r, c] = max( sum_j L[r, j] * (sum_d x[j, d] * W_irr[d, c]) + sum_j U[r, j] * (sum_d x[j, d] * W_sol[d, c]), 0 ).
  The zero is kept as the float word both programs print for it.
-/
import Idealize.ShloMosaic.PureOps.Ideal
import Idealize.ShloMosaic.Lib.ValueIdx

noncomputable section

namespace Cert.HandValue

open Idealize.ShloMosaic Idealize.ShloMosaic.ValueIdx

/-- Row `r`, column `c` of `relu (L (x W_irr) + U (x W_sol))`. -/
def Gm (x : (⟨2, ![4096, 128]⟩ : Shape).Idx → EReal) (l u : (⟨2, ![4096, 4096]⟩ : Shape).Idx → EReal)
    (wi ws : (⟨2, ![128, 128]⟩ : Shape).Idx → EReal) (r : Fin 4096) (c : Fin 128) : EReal :=
  max ((∑ j : Fin 4096, l (ix2 r j) * ∑ d : Fin 128, x (ix2 j d) * wi (ix2 d c))
        + ∑ j : Fin 4096, u (ix2 r j) * ∑ d : Fin 128, x (ix2 j d) * ws (ix2 d c))
      (Ideal.ofBits .f32 0x00000000#32)

/-- The same as a whole array. -/
def G (x : (⟨2, ![4096, 128]⟩ : Shape).Idx → EReal) (l u : (⟨2, ![4096, 4096]⟩ : Shape).Idx → EReal)
    (wi ws : (⟨2, ![128, 128]⟩ : Shape).Idx → EReal) : (⟨2, ![4096, 128]⟩ : Shape).Idx → EReal :=
  fun y => Gm x l u wi ws ⟨(y 0).val, (y 0).isLt⟩ ⟨(y 1).val, (y 1).isLt⟩

end Cert.HandValue

end
-- ==== Proof.Hand.KBlocks.lean ====
/-
  The windows' blocks read at an index of their arrays, and a chunk's two projections as sums, on the extended reals.
  Window 0, 1, 2 (x, W_irr, W_sol) hold the whole array at every point. Block (i, k) of L and of U starts at row
  1024 i, column 1024 k. Chunk k of x is rows [1024 k, 1024 k + 1024); its projection's entry (j, q) is
  sum_d x[1024 k + j, d] * W[d, q]: the matrix unit's product into a zero accumulator, and 0 + s = s.
-/
import proofs.«148269_g26044681683717_cont_sun_m_400_15_alg».proof.Proof.Hand.Spec
import proofs.«148269_g26044681683717_cont_sun_m_400_15_alg».proof.Proof.Hand.ValueSpec
import Idealize.ShloMosaic.Lib.ValueIdx
import Idealize.ShloMosaic.Lib.Pipeline.Value
import Idealize.ShloMosaic.PureOps.Ideal.Laws

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Cert.KernelIdeal.Hand Cert.HandValue Idealize.ShloMosaic.ValueIdx

variable (m : (ℓ : Loc nD τ sig) → Buf (Elt Ideal) ℓ)

/-- The five argument arrays as the region finds them, as functions on the extended reals. -/
abbrev xA (c : Dev nD) : S4096x128.Idx → EReal := V m c main_arg0
abbrev lA (c : Dev nD) : S4096x4096.Idx → EReal := V m c main_arg1
abbrev uA (c : Dev nD) : S4096x4096.Idx → EReal := V m c main_arg2
abbrev wiA (c : Dev nD) : S128x128.Idx → EReal := V m c main_arg3
abbrev wsA (c : Dev nD) : S128x128.Idx → EReal := V m c main_arg4

/-! ## The printed index maps, decided once over the grid -/

/-- Windows 0, 1, 2 sit at block (0, 0) at every point: the block is the whole array. -/
theorem index_whole : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The blocks of L and of U at point t are block (t / 4, t % 4). -/
theorem index_LU : ∀ t : Fin cfg0.N,
    win0_3.index t (0 : Fin 2) = t.val / 4 ∧ win0_3.index t (1 : Fin 2) = t.val % 4
    ∧ win0_4.index t (0 : Fin 2) = t.val / 4 ∧ win0_4.index t (1 : Fin 2) = t.val % 4 :=
  (by decide +kernel : ∀ t : Fin grid0.N, _)

/-- The chunk of point t starts at row 1024 (t % 4), column 0. -/
theorem chunk_off : ∀ t : Fin cfg0.N, k0_off2 (grid0.coords t) = ![1024 * (t.val % 4), 0] :=
  (by decide +kernel : ∀ t : Fin grid0.N, _)

theorem X_eq (c : Dev nD) : X (F := Ideal) m c = xA m c := by
  funext y
  obtain ⟨e0, e1, -, -, -, -⟩ := index_whole (ptOf 0)
  show V m c main_arg0 (((cfg0.win 0).blk (ptOf 0)).view.emb y) = V m c main_arg0 y
  refine congrArg (V m c main_arg0) (funext fun a => Fin.ext ?_)
  match a with
  | ⟨0, _⟩ => show win0_0.index (ptOf 0) (0 : Fin 2) * 4096 + 1 * (y 0).val = (y 0).val; omega
  | ⟨1, _⟩ => show win0_0.index (ptOf 0) (1 : Fin 2) * 128 + 1 * (y 1).val = (y 1).val; omega

theorem Wi_eq (c : Dev nD) : Wi (F := Ideal) m c = wiA m c := by
  funext y
  obtain ⟨-, -, e0, e1, -, -⟩ := index_whole (ptOf 0)
  show V m c main_arg3 (((cfg0.win 1).blk (ptOf 0)).view.emb y) = V m c main_arg3 y
  refine congrArg (V m c main_arg3) (funext fun a => Fin.ext ?_)
  match a with
  | ⟨0, _⟩ => show win0_1.index (ptOf 0) (0 : Fin 2) * 128 + 1 * (y 0).val = (y 0).val; omega
  | ⟨1, _⟩ => show win0_1.index (ptOf 0) (1 : Fin 2) * 128 + 1 * (y 1).val = (y 1).val; omega

theorem Ws_eq (c : Dev nD) : Ws (F := Ideal) m c = wsA m c := by
  funext y
  obtain ⟨-, -, -, -, e0, e1⟩ := index_whole (ptOf 0)
  show V m c main_arg4 (((cfg0.win 2).blk (ptOf 0)).view.emb y) = V m c main_arg4 y
  refine congrArg (V m c main_arg4) (funext fun a => Fin.ext ?_)
  match a with
  | ⟨0, _⟩ => show win0_2.index (ptOf 0) (0 : Fin 2) * 128 + 1 * (y 0).val = (y 0).val; omega
  | ⟨1, _⟩ => show win0_2.index (ptOf 0) (1 : Fin 2) * 128 + 1 * (y 1).val = (y 1).val; omega

theorem Lb_apply (c : Dev nD) (t : Fin cfg0.N) (p j : Fin 1024)
    (hr : 1024 * (t.val / 4) + p.val < 4096) (hc : 1024 * (t.val % 4) + j.val < 4096) :
    Lb (F := Ideal) m c t (ix2 p j) = lA m c (ix2 ⟨1024 * (t.val / 4) + p.val, hr⟩ ⟨1024 * (t.val % 4) + j.val, hc⟩) := by
  obtain ⟨e0, e1, -, -⟩ := index_LU t
  show V m c main_arg1 (((cfg0.win 3).blk t).view.emb (ix2 p j)) = V m c main_arg1 _
  refine congrArg (V m c main_arg1) (funext fun a => Fin.ext ?_)
  match a with
  | ⟨0, _⟩ => show win0_3.index t (0 : Fin 2) * 1024 + 1 * p.val = 1024 * (t.val / 4) + p.val; omega
  | ⟨1, _⟩ => show win0_3.index t (1 : Fin 2) * 1024 + 1 * j.val = 1024 * (t.val % 4) + j.val; omega

theorem Ub_apply (c : Dev nD) (t : Fin cfg0.N) (p j : Fin 1024)
    (hr : 1024 * (t.val / 4) + p.val < 4096) (hc : 1024 * (t.val % 4) + j.val < 4096) :
    Ub (F := Ideal) m c t (ix2 p j) = uA m c (ix2 ⟨1024 * (t.val / 4) + p.val, hr⟩ ⟨1024 * (t.val % 4) + j.val, hc⟩) := by
  obtain ⟨-, -, e0, e1⟩ := index_LU t
  show V m c main_arg2 (((cfg0.win 4).blk t).view.emb (ix2 p j)) = V m c main_arg2 _
  refine congrArg (V m c main_arg2) (funext fun a => Fin.ext ?_)
  match a with
  | ⟨0, _⟩ => show win0_4.index t (0 : Fin 2) * 1024 + 1 * p.val = 1024 * (t.val / 4) + p.val; omega
  | ⟨1, _⟩ => show win0_4.index t (1 : Fin 2) * 1024 + 1 * j.val = 1024 * (t.val % 4) + j.val; omega

/-! ## The projection's product read at an entry -/

/-- The product's left operand at output (j, q) and contraction index k: row j … -/
theorem lhs_proj_0 (i : S1024x128.Idx) (k : dot_S1024x128_S128x128_S1024x128_1_0_0_1_n_n.contr.Idx) :
    (dot_S1024x128_S128x128_S1024x128_1_0_0_1_n_n.lhsIdx i k 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
/-- … column k. -/
theorem lhs_proj_1 (i : S1024x128.Idx) (k : dot_S1024x128_S128x128_S1024x128_1_0_0_1_n_n.contr.Idx) :
    (dot_S1024x128_S128x128_S1024x128_1_0_0_1_n_n.lhsIdx i k 1).val = (k ⟨0, by decide⟩).val :=
  dot_S1024x128_S128x128_S1024x128_1_0_0_1_n_n.lhsIdx_val_of_single rfl i k
/-- The right operand there: row k … -/
theorem rhs_proj_0 (i : S1024x128.Idx) (k : dot_S1024x128_S128x128_S1024x128_1_0_0_1_n_n.contr.Idx) :
    (dot_S1024x128_S128x128_S1024x128_1_0_0_1_n_n.rhsIdx i k 0).val = (k ⟨0, by decide⟩).val :=
  dot_S1024x128_S128x128_S1024x128_1_0_0_1_n_n.rhsIdx_val_of_single rfl i k
/-- … column q. -/
theorem rhs_proj_1 (i : S1024x128.Idx) (k : dot_S1024x128_S128x128_S1024x128_1_0_0_1_n_n.contr.Idx) :
    (dot_S1024x128_S128x128_S1024x128_1_0_0_1_n_n.rhsIdx i k 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- A 1024 x 128 by 128 x 128 product into a zero accumulator, read at entry (j, q): sum_d a[j, d] * w[d, q]. -/
theorem matmul_zero_apply (a : FVec Ideal S1024x128 .f32) (w : FVec Ideal S128x128 .f32) (j : Fin 1024) (q : Fin 128) :
    matmul (F := Ideal) dot_S1024x128_S128x128_S1024x128_1_0_0_1_n_n none a w (constant (F := Ideal) S1024x128 .f32 0x00000000#32) (ix2 j q)
      = ∑ d : Fin 128, a (ix2 j d) * w (ix2 d q) := by
  refine (Ideal.matmul_constant_zero_apply dot_S1024x128_S128x128_S1024x128_1_0_0_1_n_n none a w (ix2 j q)).trans ?_
  rw [← Equiv.sum_comp (ValueIdx.contrEquiv1 dot_S1024x128_S128x128_S1024x128_1_0_0_1_n_n 128 rfl rfl).symm]
  refine Finset.sum_congr rfl fun d _ => ?_
  have hd := ValueIdx.contrEquiv1_symm_val dot_S1024x128_S128x128_S1024x128_1_0_0_1_n_n 128 rfl rfl d
  have el : dot_S1024x128_S128x128_S1024x128_1_0_0_1_n_n.lhsIdx (ix2 j q) ((ValueIdx.contrEquiv1 dot_S1024x128_S128x128_S1024x128_1_0_0_1_n_n 128 rfl rfl).symm d) = ix2 j d := funext fun b => Fin.ext (by
    match b with
    | ⟨0, _⟩ => exact lhs_proj_0 _ _
    | ⟨1, _⟩ => exact (lhs_proj_1 _ _).trans hd)
  have er : dot_S1024x128_S128x128_S1024x128_1_0_0_1_n_n.rhsIdx (ix2 j q) ((ValueIdx.contrEquiv1 dot_S1024x128_S128x128_S1024x128_1_0_0_1_n_n 128 rfl rfl).symm d) = ix2 d q := funext fun b => Fin.ext (by
    match b with
    | ⟨0, _⟩ => exact (rhs_proj_0 _ _).trans hd
    | ⟨1, _⟩ => exact rhs_proj_1 _ _)
  rw [el, er]

/-- The first projection's payload at an entry. -/
theorem pay1_apply (a : Vec Ideal S1024x128 .f32) (w : Vec Ideal S128x128 .f32) (j : Fin 1024) (q : Fin 128) :
    k0_pay1 (F := Ideal) a w (ix2 j q) = ∑ d : Fin 128, a (ix2 j d) * w (ix2 d q) := by
  unfold k0_pay1
  exact (congrFun (shapeCast_self _ _) (ix2 j q)).trans (matmul_zero_apply a w j q)

/-- The second projection's payload at an entry. -/
theorem pay2_apply (a : Vec Ideal S1024x128 .f32) (w : Vec Ideal S128x128 .f32) (j : Fin 1024) (q : Fin 128) :
    k0_pay2 (F := Ideal) a w (ix2 j q) = ∑ d : Fin 128, a (ix2 j d) * w (ix2 d q) := by
  unfold k0_pay2
  exact (congrFun (shapeCast_self _ _) (ix2 j q)).trans (matmul_zero_apply a w j q)

/-- Chunk t % 4 of x read at (j, d): x at row 1024 (t % 4) + j, column d. -/
theorem ld_chunk_apply (c : Dev nD) (t : Fin cfg0.N) (j : Fin 1024) (d : Fin 128) (hc : 1024 * (t.val % 4) + j.val < 4096) :
    View.ld (Val := Elt Ideal) (e' := .f32) (xA m c) (chunk (grid0.coords t)) (ix2 j d)
      = xA m c (ix2 ⟨1024 * (t.val % 4) + j.val, hc⟩ d) := by
  have e := chunk_off t
  show xA m c ((chunk (grid0.coords t)).idx (ix2 j d)) = _
  refine congrArg (xA m c) (funext fun b => Fin.ext ?_)
  match b with
  | ⟨0, _⟩ =>
    show k0_off2 (grid0.coords t) 0 + 1 * j.val = 1024 * (t.val % 4) + j.val
    rw [e]; show 1024 * (t.val % 4) + 1 * j.val = _; omega
  | ⟨1, _⟩ =>
    show k0_off2 (grid0.coords t) 1 + 1 * d.val = d.val
    rw [e]; show 0 + 1 * d.val = _; omega

theorem P1_apply (c : Dev nD) (t : Fin cfg0.N) (j : Fin 1024) (q : Fin 128) (hc : 1024 * (t.val % 4) + j.val < 4096) :
    P1 (F := Ideal) m c t (ix2 j q) = ∑ d : Fin 128, xA m c (ix2 ⟨1024 * (t.val % 4) + j.val, hc⟩ d) * wiA m c (ix2 d q) := by
  unfold P1
  rw [X_eq, Wi_eq]
  exact (pay1_apply _ _ j q).trans (Finset.sum_congr rfl fun d _ =>
    congrArg (· * wiA m c (ix2 d q)) (ld_chunk_apply m c t j d hc))

theorem P2_apply (c : Dev nD) (t : Fin cfg0.N) (j : Fin 1024) (q : Fin 128) (hc : 1024 * (t.val % 4) + j.val < 4096) :
    P2 (F := Ideal) m c t (ix2 j q) = ∑ d : Fin 128, xA m c (ix2 ⟨1024 * (t.val % 4) + j.val, hc⟩ d) * wsA m c (ix2 d q) := by
  unfold P2
  rw [X_eq, Ws_eq]
  exact (pay2_apply _ _ j q).trans (Finset.sum_congr rfl fun d _ =>
    congrArg (· * wsA m c (ix2 d q)) (ld_chunk_apply m c t j d hc))

end Cert.KernelIdeal.HandValue

end
-- ==== Proof.Hand.KAcc.lean ====
/-
  The accumulator at the end of a row block, on the extended reals, entry by entry: the four points of row block i
  each add L[i,k] * h_irr[chunk k] + U[i,k] * h_sol[chunk k], starting from zero at k = 0, so entry (p, q) after
  point 4 i + 3 is the sum over the four chunks of the two products' entries. Each product is the matrix unit's
  into a zero accumulator: a plain sum over the 1024 columns of the block.
-/
import proofs.«148269_g26044681683717_cont_sun_m_400_15_alg».proof.Proof.Hand.Spec
import proofs.«148269_g26044681683717_cont_sun_m_400_15_alg».proof.Proof.Hand.ValueSpec
import Idealize.ShloMosaic.Lib.ValueIdx
import Idealize.ShloMosaic.Lib.Pipeline.Value
import Idealize.ShloMosaic.PureOps.Ideal.Laws

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Cert.KernelIdeal.Hand Cert.HandValue Idealize.ShloMosaic.ValueIdx

variable (m : (ℓ : Loc nD τ sig) → Buf (Elt Ideal) ℓ)

/-! ## The block product's operand indices, axis by axis -/

theorem lhs_blockdot_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_blockdot_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs_blockdot_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs_blockdot_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- A block product into the zero accumulator, entry (p, q): the plain sum over the 1024 contracted columns. -/
theorem blockdot_apply (a : FVec Ideal S1024x1024 .f32) (b : FVec Ideal S1024x128 .f32) (p : Fin 1024) (q : Fin 128) :
    matmul (F := Ideal) dot_S1024x1024_S1024x128_S1024x128_1_0_0_1_n_n none a b (constant (F := Ideal) S1024x128 .f32 0x00000000#32) (ix2 p q)
      = ∑ j : Fin 1024, a (ix2 p j) * b (ix2 j q) := by
  simp only [matmul]
  rw [Ideal.matmul_constant_zero_apply, ← Equiv.sum_comp (ValueIdx.contrEquiv1 dot_S1024x1024_S1024x128_S1024x128_1_0_0_1_n_n 1024 rfl rfl).symm]
  refine Finset.sum_congr rfl fun k _ => ?_
  have hk := ValueIdx.contrEquiv1_symm_val dot_S1024x1024_S1024x128_S1024x128_1_0_0_1_n_n 1024 rfl rfl k
  have el : dot_S1024x1024_S1024x128_S1024x128_1_0_0_1_n_n.lhsIdx (ix2 p q) ((ValueIdx.contrEquiv1 dot_S1024x1024_S1024x128_S1024x128_1_0_0_1_n_n 1024 rfl rfl).symm k) = ix2 p k := funext fun a => Fin.ext (by
    match a with
    | ⟨0, _⟩ => exact lhs_blockdot_0 _ _
    | ⟨1, _⟩ => exact (lhs_blockdot_1 _ _).trans hk)
  have er : dot_S1024x1024_S1024x128_S1024x128_1_0_0_1_n_n.rhsIdx (ix2 p q) ((ValueIdx.contrEquiv1 dot_S1024x1024_S1024x128_S1024x128_1_0_0_1_n_n 1024 rfl rfl).symm k) = ix2 k q := funext fun a => Fin.ext (by
    match a with
    | ⟨0, _⟩ => exact (rhs_blockdot_0 _ _).trans hk
    | ⟨1, _⟩ => exact rhs_blockdot_1 _ _)
  rw [el, er]

/-- The accumulator's update, entry (p, q): the old entry plus the two block products' entries. -/
theorem pay4_apply (v8 v11 v12 : Vec Ideal S1024x128 .f32) (v13 v15 : Vec Ideal S1024x1024 .f32) (p : Fin 1024) (q : Fin 128) :
    k0_pay4 (F := Ideal) v8 v11 v12 v13 v15 (ix2 p q)
      = v12 (ix2 p q) + ((∑ j : Fin 1024, v13 (ix2 p j) * v8 (ix2 j q)) + ∑ j : Fin 1024, v15 (ix2 p j) * v11 (ix2 j q)) := by
  unfold k0_pay4
  rw [shapeCast_self, addf_apply, addf_apply, blockdot_apply, blockdot_apply]

/-- The zeroed accumulator, entry by entry. -/
theorem pay3_apply (j : S1024x128.Idx) : k0_pay3 (F := Ideal) j = 0 := by
  unfold k0_pay3
  rw [shapeCast_self, broadcast_apply]
  exact Ideal.ofBits_zero_f32

/-! ## The accumulator's recursion, entry by entry -/

/-- The accumulator is reset exactly at the first chunk of a row block. -/
theorem cond2_iff : ∀ t : Fin grid0.N, cond2 (grid0.coords t) ↔ t.val % 4 = 0 := by decide +kernel

theorem accIn_first (n : ℕ) (h : n % 4 = 0) (a : Vec Ideal S1024x128 .f32) :
    accIn (F := Ideal) (grid0.coords (ptOf n)) a = k0_pay3 (F := Ideal) := by
  unfold accIn
  exact if_pos ((cond2_iff (ptOf n)).mpr (by show n % 16 % 4 = 0; omega))

theorem accIn_later (n : ℕ) (h : n % 4 ≠ 0) (a : Vec Ideal S1024x128 .f32) :
    accIn (F := Ideal) (grid0.coords (ptOf n)) a = a := by
  unfold accIn
  refine if_neg fun hc => h ?_
  have h4 : n % 16 % 4 = 0 := (cond2_iff (ptOf n)).mp hc
  omega

/-- Entry (p, q) of what point `n` adds to the accumulator: its two block products' entries. -/
def blockTerm (c : Dev nD) (n : ℕ) (p : Fin 1024) (q : Fin 128) :=
  (∑ j : Fin 1024, Lb (F := Ideal) m c (ptOf n) (ix2 p j) * P1 (F := Ideal) m c (ptOf n) (ix2 j q))
    + ∑ j : Fin 1024, Ub (F := Ideal) m c (ptOf n) (ix2 p j) * P2 (F := Ideal) m c (ptOf n) (ix2 j q)

/-- At the first chunk of a row block the accumulator is the point's own term. -/
theorem ACC_first (c : Dev nD) (n : ℕ) (h : n % 4 = 0) (p : Fin 1024) (q : Fin 128) :
    ACC (F := Ideal) m c n (ix2 p q) = blockTerm m c n p q := by
  cases n with
  | zero =>
    show k0_pay4 (F := Ideal) _ _ _ _ _ (ix2 p q) = _
    rw [pay4_apply, accIn_first 0 h, pay3_apply, zero_add]
    rfl
  | succ n =>
    show k0_pay4 (F := Ideal) _ _ _ _ _ (ix2 p q) = _
    rw [pay4_apply, accIn_first (n + 1) h, pay3_apply, zero_add]
    rfl

/-- At a later chunk it is what the point before left plus the point's term. -/
theorem ACC_later (c : Dev nD) (n : ℕ) (h : (n + 1) % 4 ≠ 0) (p : Fin 1024) (q : Fin 128) :
    ACC (F := Ideal) m c (n + 1) (ix2 p q) = ACC (F := Ideal) m c n (ix2 p q) + blockTerm m c (n + 1) p q := by
  show k0_pay4 (F := Ideal) _ _ _ _ _ (ix2 p q) = _
  rw [pay4_apply, accIn_later (n + 1) h]
  rfl

theorem ACC_apply (c : Dev nD) (i : Fin 4) (p : Fin 1024) (q : Fin 128) :
    ACC (F := Ideal) m c (4 * i.val + 3) (ix2 p q)
      = ∑ k : Fin 4, ((∑ j : Fin 1024, Lb (F := Ideal) m c (ptOf (4 * i.val + k.val)) (ix2 p j) * P1 (F := Ideal) m c (ptOf (4 * i.val + k.val)) (ix2 j q))
          + ∑ j : Fin 1024, Ub (F := Ideal) m c (ptOf (4 * i.val + k.val)) (ix2 p j) * P2 (F := Ideal) m c (ptOf (4 * i.val + k.val)) (ix2 j q)) := by
  show _ = ∑ k : Fin 4, blockTerm m c (4 * i.val + k.val) p q
  rw [Fin.sum_univ_four]
  show ACC (F := Ideal) m c (4 * i.val + 2 + 1) (ix2 p q)
    = blockTerm m c (4 * i.val) p q + blockTerm m c (4 * i.val + 0 + 1) p q + blockTerm m c (4 * i.val + 1 + 1) p q
      + blockTerm m c (4 * i.val + 2 + 1) p q
  rw [ACC_later m c (4 * i.val + 2) (by omega) p q]
  refine congrArg (· + blockTerm m c (4 * i.val + 2 + 1) p q) ?_
  rw [ACC_later m c (4 * i.val + 1) (by omega) p q]
  refine congrArg (· + blockTerm m c (4 * i.val + 1 + 1) p q) ?_
  show ACC (F := Ideal) m c (4 * i.val + 0 + 1) (ix2 p q) = _
  rw [ACC_later m c (4 * i.val + 0) (by omega) p q]
  refine congrArg (· + blockTerm m c (4 * i.val + 0 + 1) p q) ?_
  exact ACC_first m c (4 * i.val) (by omega) p q

end Cert.KernelIdeal.HandValue

end
-- ==== Proof.Hand.KValue.lean ====
/-
  What the output's staging buffer holds where the body stores it is the target function's block: entry (p, q) at
  the last point of row block i is Gm at row 1024 i + p, column q. The sum over the four chunks of the sums over a
  block's 1024 columns is the sum over all 4096 columns (1024 k + j runs through them once), and a sum of sums
  splits termwise; both hold in any additive commutative monoid, so on the extended reals with no finiteness.
-/
import proofs.«148269_g26044681683717_cont_sun_m_400_15_alg».proof.Proof.Hand.KBlocks
import proofs.«148269_g26044681683717_cont_sun_m_400_15_alg».proof.Proof.Hand.KAcc

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Cert.KernelIdeal.Hand Cert.HandValue Idealize.ShloMosaic.ValueIdx

variable (m : (ℓ : Loc nD τ sig) → Buf (Elt Ideal) ℓ)

/-- Four chunks of 1024 make 4096: the double sum over (chunk, place in the chunk) is the sum over all places,
    because (k, j) ↦ 1024 k + j is a bijection of Fin 4 × Fin 1024 with Fin 4096. -/
theorem sum_chunks {M : Type*} [AddCommMonoid M] (g : Fin 4096 → M) :
    ∑ k : Fin 4, ∑ j : Fin 1024, g ⟨1024 * k.val + j.val, by have := k.isLt; have := j.isLt; omega⟩
      = ∑ J : Fin 4096, g J := by
  let e : Fin 4 × Fin 1024 ≃ Fin 4096 := finProdFinEquiv (m := 4) (n := 1024)
  rw [← Equiv.sum_comp e g, Fintype.sum_prod_type]
  refine Fintype.sum_congr _ _ (fun k => Fintype.sum_congr _ _ (fun j => congrArg g (Fin.ext ?_)))
  show 1024 * k.val + j.val = j.val + 1024 * k.val
  omega

/-- Below 16 the point numbered n is n itself: the reduction mod 16 does nothing. -/
theorem ptOf_val_of_lt (n : ℕ) (hn : n < 16) : (ptOf n).val = n := Nat.mod_eq_of_lt hn

/-- The L block and the first projection handed to point n (below 16), read at the arrays' indices. -/
theorem Lb_P1_at (c : Dev nD) (n : ℕ) (hn : n < 16) (p j : Fin 1024) (q : Fin 128)
    (hr : 1024 * (n / 4) + p.val < 4096) (hc : 1024 * (n % 4) + j.val < 4096) :
    Lb (F := Ideal) m c (ptOf n) (ix2 p j) * P1 (F := Ideal) m c (ptOf n) (ix2 j q)
      = lA m c (ix2 ⟨1024 * (n / 4) + p.val, hr⟩ ⟨1024 * (n % 4) + j.val, hc⟩)
        * ∑ d : Fin 128, xA m c (ix2 ⟨1024 * (n % 4) + j.val, hc⟩ d) * wiA m c (ix2 d q) := by
  have hv : (ptOf n).val = n := ptOf_val_of_lt n hn
  rw [Lb_apply m c (ptOf n) p j (by rw [hv]; exact hr) (by rw [hv]; exact hc),
    P1_apply m c (ptOf n) j q (by rw [hv]; exact hc)]
  simp only [hv]

/-- The U block and the second projection handed to point n (below 16), read at the arrays' indices. -/
theorem Ub_P2_at (c : Dev nD) (n : ℕ) (hn : n < 16) (p j : Fin 1024) (q : Fin 128)
    (hr : 1024 * (n / 4) + p.val < 4096) (hc : 1024 * (n % 4) + j.val < 4096) :
    Ub (F := Ideal) m c (ptOf n) (ix2 p j) * P2 (F := Ideal) m c (ptOf n) (ix2 j q)
      = uA m c (ix2 ⟨1024 * (n / 4) + p.val, hr⟩ ⟨1024 * (n % 4) + j.val, hc⟩)
        * ∑ d : Fin 128, xA m c (ix2 ⟨1024 * (n % 4) + j.val, hc⟩ d) * wsA m c (ix2 d q) := by
  have hv : (ptOf n).val = n := ptOf_val_of_lt n hn
  rw [Ub_apply m c (ptOf n) p j (by rw [hv]; exact hr) (by rw [hv]; exact hc),
    P2_apply m c (ptOf n) j q (by rw [hv]; exact hc)]
  simp only [hv]

theorem kernel_value (c : Dev nD) (t : Fin cfg0.N) (ht : t.val % 4 = 3) (p : Fin 1024) (q : Fin 128)
    (hr : 1024 * (t.val / 4) + p.val < 4096) :
    outAt (F := Ideal) m c t (ix2 p q)
      = Gm (xA m c) (lA m c) (uA m c) (wiA m c) (wsA m c) ⟨1024 * (t.val / 4) + p.val, hr⟩ q := by
  have hlt : t.val < 16 := lt_of_lt_of_eq t.isLt N_0
  have hi : t.val / 4 < 4 := by omega
  have htv : t.val = 4 * (⟨t.val / 4, hi⟩ : Fin 4).val + 3 := by show t.val = 4 * (t.val / 4) + 3; omega
  -- the stored block is the rectified accumulator; the zero is the same word on both sides
  have hout : outAt (F := Ideal) m c t (ix2 p q)
      = max (ACC (F := Ideal) m c (4 * (⟨t.val / 4, hi⟩ : Fin 4).val + 3) (ix2 p q)) (Ideal.ofBits .f32 0x00000000#32) := by
    rw [← htv]; rfl
  rw [hout, ACC_apply]
  unfold Gm
  refine congrArg (max · _) ?_
  -- split the sum of the two products, and write each sum over the 4096 columns as four chunks of 1024
  rw [Finset.sum_add_distrib,
    ← sum_chunks (fun J => lA m c (ix2 ⟨1024 * (t.val / 4) + p.val, hr⟩ J)
        * ∑ d : Fin 128, xA m c (ix2 J d) * wiA m c (ix2 d q)),
    ← sum_chunks (fun J => uA m c (ix2 ⟨1024 * (t.val / 4) + p.val, hr⟩ J)
        * ∑ d : Fin 128, xA m c (ix2 J d) * wsA m c (ix2 d q))]
  refine congrArg₂ (· + ·) ?_ ?_
  · refine Fintype.sum_congr _ _ (fun k => Fintype.sum_congr _ _ (fun j => ?_))
    have hk := k.isLt
    have hj := j.isLt
    have hd : (4 * (t.val / 4) + k.val) / 4 = t.val / 4 := by omega
    have hm : (4 * (t.val / 4) + k.val) % 4 = k.val := by omega
    show Lb (F := Ideal) m c (ptOf (4 * (t.val / 4) + k.val)) (ix2 p j)
        * P1 (F := Ideal) m c (ptOf (4 * (t.val / 4) + k.val)) (ix2 j q) = _
    rw [Lb_P1_at m c (4 * (t.val / 4) + k.val) (by omega) p j q (by omega) (by omega)]
    simp only [hd, hm]
  · refine Fintype.sum_congr _ _ (fun k => Fintype.sum_congr _ _ (fun j => ?_))
    have hk := k.isLt
    have hj := j.isLt
    have hd : (4 * (t.val / 4) + k.val) / 4 = t.val / 4 := by omega
    have hm : (4 * (t.val / 4) + k.val) % 4 = k.val := by omega
    show Ub (F := Ideal) m c (ptOf (4 * (t.val / 4) + k.val)) (ix2 p j)
        * P2 (F := Ideal) m c (ptOf (4 * (t.val / 4) + k.val)) (ix2 j q) = _
    rw [Ub_P2_at m c (4 * (t.val / 4) + k.val) (by omega) p j q (by omega) (by omega)]
    simp only [hd, hm]

end Cert.KernelIdeal.HandValue

end
-- ==== Proof.Hand.Final.lean ====
/-
  The output array after the run is the target function of the argument arrays.

  The output window's block at point t is rows [1024 (t / 4), 1024 (t / 4) + 1024), all 128 columns; it is written
  back exactly at the last chunk of each row block (t % 4 = 3), where the body has just stored the rectified fold,
  which is the target function on those rows. Row r lies in the block of point 4 (r / 1024) + 3, so the four
  write-backs cover the array.
-/
import proofs.«148269_g26044681683717_cont_sun_m_400_15_alg».proof.Proof.Hand.Data
import proofs.«148269_g26044681683717_cont_sun_m_400_15_alg».proof.Proof.Hand.KValue

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Cert.KernelIdeal.Hand Cert.HandValue Idealize.ShloMosaic.ValueIdx

variable (m : (ℓ : Loc nD τ sig) → Buf (Elt Ideal) ℓ) (ρ : Dev nD → PrngReg)

/-- The target array of the argument arrays as the region finds them. -/
abbrev Gk (c : Dev nD) : S4096x128.Idx → EReal := G (xA m c) (lA m c) (uA m c) (wiA m c) (wsA m c)

/-- The output window's block index: the row block, column block 0. -/
theorem idx5 : ∀ t : Fin cfg0.N, win0_5.index t (0 : Fin 2) = t.val / 4 ∧ win0_5.index t (1 : Fin 2) = 0 :=
  (by decide +kernel : ∀ t : Fin grid0.N, win0_5.index t (0 : Fin 2) = t.val / 4 ∧ win0_5.index t (1 : Fin 2) = 0)

/-- What a write-back point writes back is its block of the target array. -/
theorem flushed5_eq (c : Dev nD) (t : Fin cfg0.N) (hf : (cfg0.win 5).flush t = true) :
    (dats m 0 c).flushed 5 t = ((cfg0.win 5).blk t).view.read (Elt Ideal) (Gk m c) := by
  have h3 : t.val % 4 = 3 := (flush0_5 t).mp hf
  have hN : t.val < 16 := lt_of_lt_of_eq t.isLt N_0
  show (cfg0.win 5).cut (grid0.coords t) ((dats m 0 c).after 5 t) = _
  rw [after0_5]
  funext j
  obtain ⟨p, q, rfl⟩ : ∃ (p : Fin 1024) (q : Fin 128), j = ix2 p q := ⟨j 0, j 1, eq_ix2 j⟩
  have hr : 1024 * (t.val / 4) + p.val < 4096 := by have := p.isLt; omega
  show outAt m c t (ix2 p q) = Gk m c (((cfg0.win 5).blk t).view.emb (ix2 p q))
  rw [kernel_value m c t h3 p q hr]
  have e0 : 1024 * (t.val / 4) + p.val = ((((cfg0.win 5).blk t).view.emb (ix2 p q)) (0 : Fin 2)).val := by
    show _ = win0_5.index t (0 : Fin 2) * 1024 + 1 * p.val
    rw [(idx5 t).1]; omega
  have e1 : q.val = ((((cfg0.win 5).blk t).view.emb (ix2 p q)) (1 : Fin 2)).val := by
    show _ = win0_5.index t (1 : Fin 2) * 128 + 1 * q.val
    rw [(idx5 t).2]; omega
  show Gm _ _ _ _ _ _ _ = Gm _ _ _ _ _ _ _
  exact congrArg₂ (Gm (xA m c) (lA m c) (uA m c) (wiA m c) (wsA m c)) (Fin.ext e0) (Fin.ext e1)

/-- An index of the array is in point t's block iff each coordinate is in the block's range on its axis. -/
theorem mem_blk5 (t : Fin cfg0.N) (i : S4096x128.Idx) :
    i ∈ ((cfg0.win 5).blk t).view.set ↔ ∀ a : Fin 2, win0_5.index t a * S1024x128.size a ≤ (i a).val ∧ (i a).val < win0_5.index t a * S1024x128.size a + S1024x128.size a := by
  show i ∈ ((View.whole main_v0).slice (win0_5.rect t)).set ↔ _
  rw [View.set_slice_whole, Rect.mem_set_unit]
  exact Iff.rfl

/-- Every index of the array lies in the block of a point that writes back. -/
theorem cover5 (i : S4096x128.Idx) : ∃ t : Fin cfg0.N, (cfg0.win 5).flush t = true ∧ i ∈ ((cfg0.win 5).blk t).view.set := by
  have hi0 : (i 0).val < 4096 := (i 0).isLt
  have hi1 : (i 1).val < 128 := (i 1).isLt
  let t : Fin cfg0.N := ⟨4 * ((i 0).val / 1024) + 3, lt_of_lt_of_eq (by omega) N_0.symm⟩
  have htv : t.val = 4 * ((i 0).val / 1024) + 3 := rfl
  refine ⟨t, (flush0_5 t).mpr (by rw [htv]; omega), ?_⟩
  rw [mem_blk5]
  intro a
  match a with
  | ⟨0, _⟩ =>
    show win0_5.index t (0 : Fin 2) * 1024 ≤ (i 0).val ∧ (i 0).val < win0_5.index t (0 : Fin 2) * 1024 + 1024
    rw [(idx5 t).1, htv]; omega
  | ⟨1, _⟩ =>
    show win0_5.index t (1 : Fin 2) * 128 ≤ (i 1).val ∧ (i 1).val < win0_5.index t (1 : Fin 2) * 128 + 128
    rw [(idx5 t).2]; omega

/-- The output array after the run. -/
theorem final5 (c : Dev nD) : (dats m 0 c).arrAt 5 cfg0.N = Gk m c :=
  (dats m 0 c).arrAt_eq_of_cover 5 (Gk m c) (fun t hf => flushed5_eq m c t hf) (cover5)

/-- The run re-posted: the result array at the target function of the arguments, the arguments unchanged. -/
theorem run : θ_run defs (onTc (τ := τ) (main (F := Ideal))) ⟨m, fun _ => 0, ρ⟩ fun r => ∀ c : Dev nD,
      r.2.mem ((c.tc : Thread nD τ).loc main_v0) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 5).trans (final5 m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c)))⟩)
    (run_main m ρ)

end Cert.KernelIdeal.HandValue

end
-- ==== Proof.Hand.RefValue.lean ====
/-
  The reference's result, read index by index off its generated run, is the target function: its two
  dot_generals nest as written, its add and its maximum against the broadcast zero word are entrywise.
-/
import proofs.«148269_g26044681683717_cont_sun_m_400_15_alg».proof.Proof.Gen.ReferenceIdeal.Run
import proofs.«148269_g26044681683717_cont_sun_m_400_15_alg».proof.Proof.Gen.ReferenceIdeal.Read
import proofs.«148269_g26044681683717_cont_sun_m_400_15_alg».proof.Proof.Hand.ValueSpec

noncomputable section

namespace Cert.ReferenceIdeal.HandValue

open Idealize.ShloMosaic Idealize.ShloMosaic.TcCoe Idealize.SL.Sem Idealize.ShloMosaic.ValueIdx
open Cert.ReferenceIdeal Cert.ReferenceIdeal.Gen Cert.ReferenceIdeal.Read Cert.HandValue

/-- The left operand's index of an outer product: row of the result, contraction position. -/
theorem lidx_outer_eq (i : S4096x128.Idx) (k : Fin 4096) :
    lidx_main_v1 i k = ix2 (⟨(i 0).val, (i 0).isLt⟩ : Fin 4096) k := by
  funext a; match a with | ⟨0, _⟩ => rfl | ⟨1, _⟩ => rfl

/-- The inner product's left index under the outer product's right index: contraction position of the outer
    product, contraction position of the inner one. -/
theorem lidx_inner_eq (i : S4096x128.Idx) (k : Fin 4096) (d : Fin 128) :
    lidx_main_v0 (ridx_main_v1 i k) d = ix2 k d := by
  funext a; match a with | ⟨0, _⟩ => rfl | ⟨1, _⟩ => rfl

/-- The inner product's right index under the outer product's right index: contraction position of the inner
    product, column of the result. -/
theorem ridx_inner_eq (i : S4096x128.Idx) (k : Fin 4096) (d : Fin 128) :
    ridx_main_v0 (ridx_main_v1 i k) d = ix2 d (⟨(i 1).val, (i 1).isLt⟩ : Fin 128) := by
  funext a; match a with | ⟨0, _⟩ => rfl | ⟨1, _⟩ => rfl

/-- The same three equations for the second pair of products. -/
theorem lidx_outer_eq' (i : S4096x128.Idx) (k : Fin 4096) :
    lidx_main_v3 i k = ix2 (⟨(i 0).val, (i 0).isLt⟩ : Fin 4096) k := by
  funext a; match a with | ⟨0, _⟩ => rfl | ⟨1, _⟩ => rfl

theorem lidx_inner_eq' (i : S4096x128.Idx) (k : Fin 4096) (d : Fin 128) :
    lidx_main_v2 (ridx_main_v3 i k) d = ix2 k d := by
  funext a; match a with | ⟨0, _⟩ => rfl | ⟨1, _⟩ => rfl

theorem ridx_inner_eq' (i : S4096x128.Idx) (k : Fin 4096) (d : Fin 128) :
    ridx_main_v2 (ridx_main_v3 i k) d = ix2 d (⟨(i 1).val, (i 1).isLt⟩ : Fin 128) := by
  funext a; match a with | ⟨0, _⟩ => rfl | ⟨1, _⟩ => rfl

theorem ref_value (x0 : (⟨S4096x128, .f32⟩ : BufTy).Contents (Elt Ideal)) (x1 x2 : (⟨S4096x4096, .f32⟩ : BufTy).Contents (Elt Ideal))
    (x3 x4 : (⟨S128x128, .f32⟩ : BufTy).Contents (Elt Ideal)) :
    val_main_v5 (F := Ideal) x0 x1 x2 x3 x4 = G x0 x1 x2 x3 x4 := by
  funext i
  rw [val_main_v5_apply, val_main_v4_apply, val_main_v1_apply, val_main_v3_apply, val_main_call0_v0_apply,
    val_main_call0_cst_apply]
  simp only [val_main_v0_apply, val_main_v2_apply, lidx_outer_eq, lidx_inner_eq, ridx_inner_eq,
    lidx_outer_eq', lidx_inner_eq', ridx_inner_eq',
    Ideal.addf_def, Ideal.maximumf_def, Ideal.ofBits_def]
  unfold G Gm
  rfl

end Cert.ReferenceIdeal.HandValue

end
-- ==== Proof.lean ====
/-
  out = relu(L (x W_irr) + U (x W_sol)), x : 4096 x 128, L, U : 4096 x 4096, W_irr, W_sol : 128 x 128, as one kernel on a
  4 x 4 grid against the plain jnp expression.

  The kernel visits row block i and contraction chunk k row-major. During row block 0 it fills, chunk by chunk, two
  scratch buffers with h_irr = x W_irr and h_sol = x W_sol (rows [1024 k, 1024 k + 1024) at chunk k); at every point
  it adds L[i,k] h_irr[chunk k] + U[i,k] h_sol[chunk k] to an accumulator it zeroes at k = 0, and at k = 3 stores
  max(acc, 0) as rows [1024 i, 1024 i + 1024) of the result.

  The frames. The scratch buffers are owned between points at SOME contents under an invariant: every chunk that row
  block 0 has passed holds its projection, and inside a row block the accumulator holds the fold of the chunks so
  far, in the body's own order of additions. One call of the body keeps it (the rows of different chunks are
  disjoint), so the pipeline runs to its end at any float instance; the arguments are only ever fetched.

  The value, at the exact instance. Entry (p, q) of the accumulator after the last chunk of row block i is
  sum_k ( sum_j L[1024 i + p, 1024 k + j] h_irr[1024 k + j, q] + sum_j U[...] h_sol[...] ): each matrix-unit product
  into a zero accumulator is a plain sum and 0 + s = s. As 1024 k + j runs through 0..4095 once, and a sum of sums
  splits termwise, this is sum_J L[r, J] h_irr[J, q] + sum_J U[r, J] h_sol[J, q] with r = 1024 i + p: the
  reference's two nested products, added. Only commutativity and associativity of + on the extended reals are used,
  so the precondition is never opened. Both sides then take the maximum with the same zero word.
-/
import proofs.«148269_g26044681683717_cont_sun_m_400_15_alg».proof.Defs
import proofs.«148269_g26044681683717_cont_sun_m_400_15_alg».proof.Proof.Gen.Kernel
import proofs.«148269_g26044681683717_cont_sun_m_400_15_alg».proof.Proof.Gen.KernelIdeal
import proofs.«148269_g26044681683717_cont_sun_m_400_15_alg».proof.Proof.Gen.ReferenceIdeal
import proofs.«148269_g26044681683717_cont_sun_m_400_15_alg».proof.Proof.Gen.Pre_finite_inputs
import proofs.«148269_g26044681683717_cont_sun_m_400_15_alg».proof.Proof.Gen.ReferenceIdeal.Run
import proofs.«148269_g26044681683717_cont_sun_m_400_15_alg».proof.Proof.Gen.ReferenceIdeal.Read
import proofs.«148269_g26044681683717_cont_sun_m_400_15_alg».proof.Proof.HandK.Data
import proofs.«148269_g26044681683717_cont_sun_m_400_15_alg».proof.Proof.Hand.Final
import proofs.«148269_g26044681683717_cont_sun_m_400_15_alg».proof.Proof.Hand.RefValue
import Idealize.ShloMosaic.Adequacy
import Idealize.ShloMosaic.Init

noncomputable section

namespace Cert.Proof

open Idealize.ShloMosaic Idealize.ShloMosaic.TcCoe Idealize.SL.Sem

/-- The word-level kernel runs to its end and leaves its arguments as they were. -/
theorem frame_kernel : Cert.frame_Kernel := fun m ρ _ => Cert.Kernel.Hand.frame m ρ

/-- So does the kernel read at the exact instance. -/
theorem frame_kernelIdeal : Cert.frame_KernelIdeal := fun m ρ _ => Cert.KernelIdeal.Hand.frame m ρ

/-- The reference is host operations only: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- At the exact instance the kernel's result array and the reference's are one function of arguments that agree. -/
theorem algebraic : Cert.algebraic_KernelIdeal_ReferenceIdeal := by
  intro m ρ m' ρ' _ hagree
  refine ⟨fun c => Cert.KernelIdeal.HandValue.Gk m c, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.HandValue.ref_value,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
